-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1x40 : Shape := ⟨2, ![1, 40]⟩
abbrev S5000x128 : Shape := ⟨2, ![5000, 128]⟩
abbrev S5000x1 : Shape := ⟨2, ![5000, 1]⟩
abbrev S800000x128 : Shape := ⟨2, ![800000, 128]⟩
abbrev S50000x40 : Shape := ⟨2, ![50000, 40]⟩
abbrev S5000x40 : Shape := ⟨2, ![5000, 40]⟩
abbrev S800000x40 : Shape := ⟨2, ![800000, 40]⟩

abbrev nBuf : Space → Nat
  | .hbm => 90
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S1x128, .f32⟩
  | .hbm, ⟨44, _⟩ => ⟨S1x128, .f32⟩
  | .hbm, ⟨45, _⟩ => ⟨S1x40, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x128, .f32⟩
  | .hbm, ⟨75, _⟩ => ⟨S50000x40, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x40, .f32⟩
  | .hbm, ⟨85, _⟩ => ⟨S_, .f32⟩
  | .hbm, ⟨86, _⟩ => ⟨S50000x40, .f32⟩
  | .hbm, ⟨87, _⟩ => ⟨S800000x1, .i32⟩
  | .hbm, ⟨88, _⟩ => ⟨S50000x40, .f32⟩
  | .hbm, ⟨89, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x40, .f32⟩
  | .local _ .vmem, ⟨27, _⟩ => ⟨S5000x1, .f32⟩
  | .local _ .vmem, ⟨28, _⟩ => ⟨S5000x1, .f32⟩
  | .local _ .vmem, ⟨29, _⟩ => ⟨S5000x40, .f32⟩
  | .local _ .vmem, ⟨30, _⟩ => ⟨S5000x40, .f32⟩
  | .local _ .vmem, ⟨31, _⟩ => ⟨S5000x40, .f32⟩
  | .local _ .vmem, ⟨32, _⟩ => ⟨S5000x40, .f32⟩
  | .local _ .vmem, ⟨33, _⟩ => ⟨S5000x1, .f32⟩
  | .local _ .vmem, ⟨34, _⟩ => ⟨S5000x1, .f32⟩
  | .local _ .vmem, ⟨35, _⟩ => ⟨S1x40, .f32⟩
  | .local _ .vmem, ⟨36, _⟩ => ⟨S5000x40, .f32⟩
  | .local _ .vmem, ⟨37, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_c_8 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_13 : Ref sig .tc := ⟨.hbm, 76, rfl⟩
abbrev main_v48 : Ref sig .tc := ⟨.hbm, 77, rfl⟩
abbrev main_v49 : Ref sig .tc := ⟨.hbm, 78, rfl⟩
abbrev main_c_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_15 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S50000x40.size a
  hwx3_3 : ∀ i : grid3.Coords, EltTy.bits .f32 = 32 ∨ (Rect.block (s := S50000x40) S5000x40.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x40.size a ≤ S50000x40.size a
  hwx4_0 : ∀ i : grid4.Coords, EltTy.bits .f32 = 32 ∨ (Rect.block (s := S50000x40) S5000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S50000x40.size a
  hwx4_3 : ∀ i : grid4.Coords, EltTy.bits .f32 = 32 ∨ (Rect.block (s := S50000x40) S5000x40.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v57) S5000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v23) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x1, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x40, .f32⟩
  | .hbm, ⟨94, _⟩ => ⟨S50000x1, .f32⟩
  | .hbm, ⟨95, _⟩ => ⟨S50000x40, .f32⟩
  | .hbm, ⟨96, _⟩ => ⟨S50000x40, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x40, .f32⟩
  | .hbm, ⟨106, _⟩ => ⟨S_, .f32⟩
  | .hbm, ⟨107, _⟩ => ⟨S50000x40, .f32⟩
  | .hbm, ⟨108, _⟩ => ⟨S800000x1, .i32⟩
  | .hbm, ⟨109, _⟩ => ⟨S50000x40, .f32⟩
  | .hbm, ⟨110, _⟩ => ⟨S50000x1, .f32⟩
  | .hbm, ⟨111, _⟩ => ⟨S50000x40, .f32⟩
  | .hbm, ⟨112, _⟩ => ⟨S50000x40, .f32⟩
  | .hbm, ⟨113, _⟩ => ⟨S1x40, .f32⟩
  | .hbm, ⟨114, _⟩ => ⟨S50000x40, .f32⟩
  | .hbm, ⟨115, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call2_cst : Ref sig .tc := ⟨.hbm, 64, rfl⟩
abbrev main_call2_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call3_cst : Ref sig .tc := ⟨.hbm, 90, rfl⟩
abbrev main_call3_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x40_0_1 : S50000x1.BroadcastsInDim S50000x40 (![0, 1] : Fin 2 → Fin S50000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KForm.lean ====
/-
  The host pieces the kernel's program applies between its dense regions, as named functions: the degree normalisation,
  the wrapped source indices, and a layer's sparse half (rows gathered along the edges' sources and summed into the edges'
  destinations) at 128 and at 40 features. They are carried as names through the value proof and never opened.
-/
import proofs.«180997_j2800318677548_1_alg».proof.Proof.Gen.KernelIdeal

noncomputable section

namespace Cert.KernelIdeal.Form

open Cert.KernelIdeal Cert.KernelIdeal.Gen Idealize.ShloMosaic

variable {F : FTy → Type} [FloatOps F]

/-- How many edges name each node: a one for every edge, summed into the node the index array names. -/
def deg (idx : Vec F S800000 .i32) : Vec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 idx)
    (broadcastInDim S800000 ![] bcast_S_S800000 (constant S_ .f32 0x3F800000#32))

/-- The degree normalisation: `1/sqrt(max(deg, 1))` where the degree is positive, `0` elsewhere. -/
def inv (idx : Vec F S800000 .i32) : Vec F S50000 .f32 :=
  select (cmpf (F := F) .ogt (deg idx) (broadcastInDim S50000 ![] bcast_S_S50000 (constant S_ .f32 0x00000000#32)))
    (Host.rsqrt (maximumf (deg idx) (broadcastInDim S50000 ![] bcast_S_S50000 (constant S_ .f32 0x3F800000#32))))
    (broadcastInDim S50000 ![] bcast_S_S50000 (id (constant S_ .f32 0x00000000#32)))

/-- The source indices as the gather takes them: a negative index counted from the end, then one index per row. -/
def wrap (src : Vec F S800000 .i32) : Vec F S800000x1 .i32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- A layer's sparse half at 128 features: the rows gathered along the edges' sources, summed into the edges' destinations. -/
def agg128 (h : Vec F S50000x128 .f32) (src dst : Vec F S800000 .i32) : Vec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (wrap src))

/-- The same at 40 features. -/
def agg40 (h : Vec F S50000x40 .f32) (src dst : Vec F S800000 .i32) : Vec F S50000x40 .f32 :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 dst)
    (Host.gather gather_S50000x40_S800000x1_S800000x40_1_0_n_n_0_1_140 h (wrap src))

end Cert.KernelIdeal.Form

end
-- ==== Proof.Spec.lean ====
/-
  The dense, node-indexed pieces of a three-layer graph convolution, each as ONE function of whole arrays of extended
  reals, index by index. Every piece is ROW-LOCAL: row `p` of the result depends on row `p` of the row-indexed operands
  (the aggregated features and the per-node degree factors, kept as one-column arrays) and on the whole weight matrix and
  the one-row bias. The same definitions serve a row block (5000 rows) and the whole array (50000 rows).

    scaleRows x s            (p, q) ↦ x[p,q] · s[p]
    convScale a s W b s'     (p, q) ↦ max (Σ_k (a[p,k] · s[p]) · W[k,q] + b[q]) 0 · s'[p]
    conv a s W b             (p, q) ↦ max (Σ_k (a[p,k] · s[p]) · W[k,q] + b[q]) 0
    projScale h W s'         (p, q) ↦ (Σ_k h[p,k] · W[k,q]) · s'[p]
    scaleBias a s b          (p, q) ↦ a[p,q] · s[p] + b[q]
-/
import Idealize.ShloMosaic.PureOps.Ideal
import Idealize.ShloMosaic.Lib.ValueIdx

noncomputable section

open scoped BigOperators

namespace Cert.Spec

open Idealize.ShloMosaic Idealize.ShloMosaic.ValueIdx

/-- An `n × d` array of extended reals. -/
abbrev Mat (n d : Nat) : Type := (⟨2, ![n, d]⟩ : Shape).Idx → EReal

variable {n d e : Nat}

/-- The row of a rank-2 index, as a plain `Fin n`. -/
abbrev row (i : (⟨2, ![n, d]⟩ : Shape).Idx) : Fin n := ⟨(i 0).val, idx2_lt0 i⟩
/-- The column of a rank-2 index, as a plain `Fin d`. -/
abbrev col (i : (⟨2, ![n, d]⟩ : Shape).Idx) : Fin d := ⟨(i 1).val, idx2_lt1 i⟩

/-- Each row scaled by its own factor. -/
def scaleRows (x : Mat n d) (s : Mat n 1) : Mat n d :=
  fun i => x i * s (ix2 (row i) (0 : Fin 1))

/-- A layer's dense half followed by the next layer's row scaling: rows scaled, projected, biased, clamped at zero,
    scaled again. -/
def convScale (a : Mat n d) (s : Mat n 1) (W : Mat d e) (b : Mat 1 e) (s' : Mat n 1) : Mat n e :=
  fun i => max ((∑ k : Fin d, (a (ix2 (row i) k) * s (ix2 (row i) (0 : Fin 1))) * W (ix2 k (col i))) + b (ix2 (0 : Fin 1) (col i))) 0
    * s' (ix2 (row i) (0 : Fin 1))

/-- A layer's dense half: rows scaled, projected, biased, clamped at zero. -/
def conv (a : Mat n d) (s : Mat n 1) (W : Mat d e) (b : Mat 1 e) : Mat n e :=
  fun i => max ((∑ k : Fin d, (a (ix2 (row i) k) * s (ix2 (row i) (0 : Fin 1))) * W (ix2 k (col i))) + b (ix2 (0 : Fin 1) (col i))) 0

/-- A projection followed by a row scaling. -/
def projScale (h : Mat n d) (W : Mat d e) (s' : Mat n 1) : Mat n e :=
  fun i => (∑ k : Fin d, h (ix2 (row i) k) * W (ix2 k (col i))) * s' (ix2 (row i) (0 : Fin 1))

/-- Rows scaled, then the bias added. -/
def scaleBias (a : Mat n e) (s : Mat n 1) (b : Mat 1 e) : Mat n e :=
  fun i => a i * s (ix2 (row i) (0 : Fin 1)) + b (ix2 (0 : Fin 1) (col i))

/-! ## The pieces read at coordinates -/

theorem scaleRows_apply (x : Mat n d) (s : Mat n 1) (p : Fin n) (q : Fin d) :
    scaleRows x s (ix2 p q) = x (ix2 p q) * s (ix2 p (0 : Fin 1)) := rfl

theorem convScale_apply (a : Mat n d) (s : Mat n 1) (W : Mat d e) (b : Mat 1 e) (s' : Mat n 1) (p : Fin n) (q : Fin e) :
    convScale a s W b s' (ix2 p q)
      = max ((∑ k : Fin d, (a (ix2 p k) * s (ix2 p (0 : Fin 1))) * W (ix2 k q)) + b (ix2 (0 : Fin 1) q)) 0 * s' (ix2 p (0 : Fin 1)) := rfl

theorem conv_apply (a : Mat n d) (s : Mat n 1) (W : Mat d e) (b : Mat 1 e) (p : Fin n) (q : Fin e) :
    conv a s W b (ix2 p q)
      = max ((∑ k : Fin d, (a (ix2 p k) * s (ix2 p (0 : Fin 1))) * W (ix2 k q)) + b (ix2 (0 : Fin 1) q)) 0 := rfl

theorem projScale_apply (h : Mat n d) (W : Mat d e) (s' : Mat n 1) (p : Fin n) (q : Fin e) :
    projScale h W s' (ix2 p q) = (∑ k : Fin d, h (ix2 p k) * W (ix2 k q)) * s' (ix2 p (0 : Fin 1)) := rfl

theorem scaleBias_apply (a : Mat n e) (s : Mat n 1) (b : Mat 1 e) (p : Fin n) (q : Fin e) :
    scaleBias a s b (ix2 p q) = a (ix2 p q) * s (ix2 p (0 : Fin 1)) + b (ix2 (0 : Fin 1) q) := rfl

/-! ## Row blocks

Block `t` of `r` rows of an array of `N` rows (`r · (t + 1) ≤ N`), and that every piece above commutes with taking a row
block of its row-indexed operands. -/

/-- Rows `r·t … r·t + r − 1` of an array. -/
def rowBlk (r : Nat) (t : Nat) (h : r * (t + 1) ≤ n) (A : Mat n d) : Mat r d :=
  fun j => A (ix2 ⟨r * t + (j 0).val, by have := idx2_lt0 j; have : r * (t + 1) = r * t + r := Nat.mul_succ r t; omega⟩ (col j))

theorem rowBlk_apply (r t : Nat) (h : r * (t + 1) ≤ n) (A : Mat n d) (p : Fin r) (q : Fin d) :
    rowBlk r t h A (ix2 p q) = A (ix2 ⟨r * t + p.val, by have := p.isLt; have : r * (t + 1) = r * t + r := Nat.mul_succ r t; omega⟩ q) := rfl

theorem scaleRows_rowBlk (r t : Nat) (h : r * (t + 1) ≤ n) (x : Mat n d) (s : Mat n 1) :
    scaleRows (rowBlk r t h x) (rowBlk r t h s) = rowBlk r t h (scaleRows x s) := rfl

theorem convScale_rowBlk (r t : Nat) (h : r * (t + 1) ≤ n) (a : Mat n d) (s : Mat n 1) (W : Mat d e) (b : Mat 1 e) (s' : Mat n 1) :
    convScale (rowBlk r t h a) (rowBlk r t h s) W b (rowBlk r t h s') = rowBlk r t h (convScale a s W b s') := rfl

theorem conv_rowBlk (r t : Nat) (h : r * (t + 1) ≤ n) (a : Mat n d) (s : Mat n 1) (W : Mat d e) (b : Mat 1 e) :
    conv (rowBlk r t h a) (rowBlk r t h s) W b = rowBlk r t h (conv a s W b) := rfl

theorem projScale_rowBlk (r t : Nat) (h : r * (t + 1) ≤ n) (x : Mat n d) (W : Mat d e) (s' : Mat n 1) :
    projScale (rowBlk r t h x) W (rowBlk r t h s') = rowBlk r t h (projScale x W s') := rfl

theorem scaleBias_rowBlk (r t : Nat) (h : r * (t + 1) ≤ n) (a : Mat n e) (s : Mat n 1) (b : Mat 1 e) :
    scaleBias (rowBlk r t h a) (rowBlk r t h s) b = rowBlk r t h (scaleBias a s b) := rfl

/-! ## The whole network

The sparse half of each layer — gathering rows along the edges' sources and summing them into the edges' destinations — and
the degree normalisation are host operations that both programs apply unchanged; here they are PARAMETERS (`agg128`,
`agg40`, `inv`), so the network is one expression in the dense pieces above. -/

/-- A vector of `n` extended reals, and of `n` 32-bit words. -/
abbrev Vec1 (n : Nat) : Type := (⟨1, ![n]⟩ : Shape).Idx → EReal
abbrev Idx1 (n : Nat) : Type := (⟨1, ![n]⟩ : Shape).Idx → BitVec 32

/-- A vector as a one-column array. -/
def colOf (s : Vec1 n) : Mat n 1 := fun i => s (ix1 (row i))
/-- A vector as a one-row array. -/
def rowOf (b : Vec1 e) : Mat 1 e := fun i => b (ix1 (col i))

theorem colOf_apply (s : Vec1 n) (p : Fin n) (q : Fin 1) : colOf s (ix2 p q) = s (ix1 p) := rfl
theorem rowOf_apply (b : Vec1 e) (p : Fin 1) (q : Fin e) : rowOf b (ix2 p q) = b (ix1 q) := rfl

/-- Three graph-convolution layers: the first two aggregate and then project (with bias and clamp), the third projects
    and then aggregates (with bias); every layer scales rows by the source factor before aggregating and by the
    destination factor after. -/
def gcn {N E : Nat} (inv : Idx1 E → Vec1 N) (agg128 : Mat N 128 → Idx1 E → Idx1 E → Mat N 128)
    (agg40 : Mat N 40 → Idx1 E → Idx1 E → Mat N 40)
    (x : Mat N 128) (src dst : Idx1 E) (W1 : Mat 128 128) (b1 : Vec1 128) (W2 : Mat 128 128) (b2 : Vec1 128)
    (W3 : Mat 128 40) (b3 : Vec1 40) : Mat N 40 :=
  scaleBias
    (agg40
      (projScale
        (conv
          (agg128
            (convScale (agg128 (scaleRows x (colOf (inv src))) src dst) (colOf (inv dst)) W1 (rowOf b1) (colOf (inv src)))
            src dst)
          (colOf (inv dst)) W2 (rowOf b2))
        W3 (colOf (inv src)))
      src dst)
    (colOf (inv dst)) (rowOf b3)

end Cert.Spec

end
-- ==== Proof.KFoldBase.lean ====
/-
  What the buffers that never change after the first region's entry hold there: the arguments as launched, the two
  degree-factor columns (the degree normalisation of the two index arrays, reshaped to one column) and the three bias rows (the
  bias vectors reshaped to one row), each read off the host stretch that wrote it.
-/
import proofs.«180997_j2800318677548_1_alg».proof.Proof.Gen.KernelIdeal.Frame
import proofs.«180997_j2800318677548_1_alg».proof.Proof.KForm
import proofs.«180997_j2800318677548_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fold

open Cert.KernelIdeal Cert.KernelIdeal.Gen Cert.KernelIdeal.Form Idealize.ShloMosaic Idealize.ShloMosaic.TcCoe Idealize.SL.Sem
open Idealize.ShloMosaic.Pipeline (Dat)
open Cert.Spec (colOf rowOf)

variable (m : (ℓ : Loc nD τ sig) → Buf (Elt Ideal) ℓ) (ρ : Dev nD → PrngReg) (c : Dev nD)

/-! ## The arguments, which no host operation writes -/

/-- A host stretch none of whose operations writes the buffer leaves it as it was: the stretch is taken off the left side. -/
local macro "host_keeps " ops:ident b:ident : tactic => `(tactic| (
  refine (StableHlo.after_of_forall_not_mem (b := Proc.devRef .tc $b) _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans ?_))

theorem W5_main_arg0 : (W5 m ρ c (Proc.devRef .tc main_arg0) : Vec Ideal S50000x128 .f32) = (m ((c : Thread nD τ).loc main_arg0)) := by
  host_keeps hostOps0_4 main_arg0
  host_keeps hostOps0_3 main_arg0
  host_keeps hostOps0_2 main_arg0
  host_keeps hostOps0_1 main_arg0
  host_keeps hostOps0 main_arg0
  rfl

theorem W5_main_arg1 : (W5 m ρ c (Proc.devRef .tc main_arg1) : Vec Ideal S800000 .i32) = (m ((c : Thread nD τ).loc main_arg1)) := by
  host_keeps hostOps0_4 main_arg1
  host_keeps hostOps0_3 main_arg1
  host_keeps hostOps0_2 main_arg1
  host_keeps hostOps0_1 main_arg1
  host_keeps hostOps0 main_arg1
  rfl

theorem W5_main_arg2 : (W5 m ρ c (Proc.devRef .tc main_arg2) : Vec Ideal S800000 .i32) = (m ((c : Thread nD τ).loc main_arg2)) := by
  host_keeps hostOps0_4 main_arg2
  host_keeps hostOps0_3 main_arg2
  host_keeps hostOps0_2 main_arg2
  host_keeps hostOps0_1 main_arg2
  host_keeps hostOps0 main_arg2
  rfl

theorem W5_main_arg3 : (W5 m ρ c (Proc.devRef .tc main_arg3) : Vec Ideal S128x128 .f32) = (m ((c : Thread nD τ).loc main_arg3)) := by
  host_keeps hostOps0_4 main_arg3
  host_keeps hostOps0_3 main_arg3
  host_keeps hostOps0_2 main_arg3
  host_keeps hostOps0_1 main_arg3
  host_keeps hostOps0 main_arg3
  rfl

theorem W5_main_arg5 : (W5 m ρ c (Proc.devRef .tc main_arg5) : Vec Ideal S128x128 .f32) = (m ((c : Thread nD τ).loc main_arg5)) := by
  host_keeps hostOps0_4 main_arg5
  host_keeps hostOps0_3 main_arg5
  host_keeps hostOps0_2 main_arg5
  host_keeps hostOps0_1 main_arg5
  host_keeps hostOps0 main_arg5
  rfl

theorem W5_main_arg7 : (W5 m ρ c (Proc.devRef .tc main_arg7) : Vec Ideal S128x40 .f32) = (m ((c : Thread nD τ).loc main_arg7)) := by
  host_keeps hostOps0_4 main_arg7
  host_keeps hostOps0_3 main_arg7
  host_keeps hostOps0_2 main_arg7
  host_keeps hostOps0_1 main_arg7
  host_keeps hostOps0 main_arg7
  rfl

/-! ## The degree-factor columns and the bias rows, written by the host stretches before the first region -/

/-- An `[a]` array cast to `[a, 1]` reads, at `(i, u)`, the operand at `i`, whatever the unit coordinate `u`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The outlined select of the second stretch over any contents `V` at its entry: where the comparison holds the
    reciprocal square root, elsewhere the spread zero. -/
private theorem where0_result (V : Valuation τ sig (Elt Ideal)) :
    (StableHlo.after hostOps0_1 V (Proc.devRef .tc main_v12) : Vec Ideal S50000 .f32)
      = select (V (Proc.devRef .tc main_v8) : (⟨S50000, .i1⟩ : BufTy).Contents (Elt Ideal))
          (V (Proc.devRef .tc main_v11) : Vec Ideal S50000 .f32)
          (broadcastInDim S50000 ![] bcast_S_S50000 (id (V (Proc.devRef .tc main_cst_4) : Vec Ideal S_ .f32))) := by
  after_results
  rfl

/-- The first stretch's comparison: the first index array's degree against zero. -/
private theorem W1_main_v8 : (W1 m ρ c (Proc.devRef .tc main_v8) : (⟨S50000, .i1⟩ : BufTy).Contents (Elt Ideal))
    = cmpf (F := Ideal) .ogt (deg (m ((c : Thread nD τ).loc main_arg1))) (broadcastInDim S50000 ![] bcast_S_S50000 (constant (F := Ideal) S_ .f32 0x00000000#32)) := by
  show StableHlo.after hostOps0 (W0 m ρ c) (Proc.devRef .tc main_v8) = _
  after_results
  unfold Form.deg
  rfl

/-- The first stretch's reciprocal square root of the degree clamped below at one. -/
private theorem W1_main_v11 : (W1 m ρ c (Proc.devRef .tc main_v11) : Vec Ideal S50000 .f32)
    = Host.rsqrt (F := Ideal) (maximumf (deg (F := Ideal) (m ((c : Thread nD τ).loc main_arg1))) (broadcastInDim S50000 ![] bcast_S_S50000 (constant (F := Ideal) S_ .f32 0x3F800000#32))) := by
  show StableHlo.after hostOps0 (W0 m ρ c) (Proc.devRef .tc main_v11) = _
  after_results
  unfold Form.deg
  rfl

/-- The first stretch's zero. -/
private theorem W1_main_cst_4 : (W1 m ρ c (Proc.devRef .tc main_cst_4) : Vec Ideal S_ .f32) = constant (F := Ideal) S_ .f32 0x00000000#32 := by
  show StableHlo.after hostOps0 (W0 m ρ c) (Proc.devRef .tc main_cst_4) = _
  after_results

/-- After the second stretch the first index array's normalised degree. -/
private theorem W2_main_v12 : (W2 m ρ c (Proc.devRef .tc main_v12) : Vec Ideal S50000 .f32) = inv (F := Ideal) (m ((c : Thread nD τ).loc main_arg1)) := by
  refine (where0_result (W1 m ρ c)).trans ?_
  rw [W1_main_v8, W1_main_v11, W1_main_cst_4]
  unfold Form.inv
  rfl

/-- The outlined select of the fourth stretch over any contents `V` at its entry. -/
private theorem where1_result (V : Valuation τ sig (Elt Ideal)) :
    (StableHlo.after hostOps0_3 V (Proc.devRef .tc main_v19) : Vec Ideal S50000 .f32)
      = select (V (Proc.devRef .tc main_v15) : (⟨S50000, .i1⟩ : BufTy).Contents (Elt Ideal))
          (V (Proc.devRef .tc main_v18) : Vec Ideal S50000 .f32)
          (broadcastInDim S50000 ![] bcast_S_S50000 (id (V (Proc.devRef .tc main_cst_7) : Vec Ideal S_ .f32))) := by
  after_results
  rfl

/-- The third stretch's comparison: the second index array's degree against zero. -/
private theorem W3_main_v15 : (W3 m ρ c (Proc.devRef .tc main_v15) : (⟨S50000, .i1⟩ : BufTy).Contents (Elt Ideal))
    = cmpf (F := Ideal) .ogt (deg (m ((c : Thread nD τ).loc main_arg2))) (broadcastInDim S50000 ![] bcast_S_S50000 (constant (F := Ideal) S_ .f32 0x00000000#32)) := by
  show StableHlo.after hostOps0_2 (W2 m ρ c) (Proc.devRef .tc main_v15) = _
  after_results
  unfold Form.deg
  rfl

/-- The third stretch's reciprocal square root of that degree clamped below at one. -/
private theorem W3_main_v18 : (W3 m ρ c (Proc.devRef .tc main_v18) : Vec Ideal S50000 .f32)
    = Host.rsqrt (F := Ideal) (maximumf (deg (F := Ideal) (m ((c : Thread nD τ).loc main_arg2))) (broadcastInDim S50000 ![] bcast_S_S50000 (constant (F := Ideal) S_ .f32 0x3F800000#32))) := by
  show StableHlo.after hostOps0_2 (W2 m ρ c) (Proc.devRef .tc main_v18) = _
  after_results
  unfold Form.deg
  rfl

/-- The third stretch's zero. -/
private theorem W3_main_cst_7 : (W3 m ρ c (Proc.devRef .tc main_cst_7) : Vec Ideal S_ .f32) = constant (F := Ideal) S_ .f32 0x00000000#32 := by
  show StableHlo.after hostOps0_2 (W2 m ρ c) (Proc.devRef .tc main_cst_7) = _
  after_results

/-- After the fourth stretch the second index array's normalised degree. -/
private theorem W4_main_v19 : (W4 m ρ c (Proc.devRef .tc main_v19) : Vec Ideal S50000 .f32) = inv (F := Ideal) (m ((c : Thread nD τ).loc main_arg2)) := by
  refine (where1_result (W3 m ρ c)).trans ?_
  rw [W3_main_v15, W3_main_v18, W3_main_cst_7]
  unfold Form.inv
  rfl

theorem W5_main_v13 : (W5 m ρ c (Proc.devRef .tc main_v13) : Vec Ideal S50000x1 .f32) = colOf (inv (F := Ideal) (m ((c : Thread nD τ).loc main_arg1))) := by
  host_keeps hostOps0_4 main_v13
  host_keeps hostOps0_3 main_v13
  show StableHlo.after hostOps0_2 (W2 m ρ c) (Proc.devRef .tc main_v13) = _
  have h := W2_main_v12 m ρ c
  generalize W2 m ρ c = V at h ⊢
  after_results
  rw [h]
  funext i
  obtain ⟨p, q, rfl⟩ : ∃ (p : Fin 50000) (q : Fin 1), i = ValueIdx.ix2 p q := ⟨i 0, i 1, ValueIdx.eq_ix2 i⟩
  rw [Cert.Spec.colOf_apply]
  exact shapeCast_a_a1_apply _ shapeCasts_S50000_S50000x1 p q

theorem W5_main_v20 : (W5 m ρ c (Proc.devRef .tc main_v20) : Vec Ideal S50000x1 .f32) = colOf (inv (F := Ideal) (m ((c : Thread nD τ).loc main_arg2))) := by
  show StableHlo.after hostOps0_4 (W4 m ρ c) (Proc.devRef .tc main_v20) = _
  have h := W4_main_v19 m ρ c
  generalize W4 m ρ c = V at h ⊢
  after_results
  rw [h]
  funext i
  obtain ⟨p, q, rfl⟩ : ∃ (p : Fin 50000) (q : Fin 1), i = ValueIdx.ix2 p q := ⟨i 0, i 1, ValueIdx.eq_ix2 i⟩
  rw [Cert.Spec.colOf_apply]
  exact shapeCast_a_a1_apply _ shapeCasts_S50000_S50000x1 p q

theorem W5_main_v21 : (W5 m ρ c (Proc.devRef .tc main_v21) : Vec Ideal S1x128 .f32) = rowOf (m ((c : Thread nD τ).loc main_arg4)) := by
  show StableHlo.after hostOps0_4 (W4 m ρ c) (Proc.devRef .tc main_v21) = _
  after_results
  funext i
  obtain ⟨p, q, rfl⟩ : ∃ (p : Fin 1) (q : Fin 128), i = ValueIdx.ix2 p q := ⟨i 0, i 1, ValueIdx.eq_ix2 i⟩
  rw [Cert.Spec.rowOf_apply]
  exact ValueIdx.shapeCast_a_1a_apply (m ((c : Thread nD τ).loc main_arg4)) shapeCasts_S128_S1x128 p q

theorem W5_main_v22 : (W5 m ρ c (Proc.devRef .tc main_v22) : Vec Ideal S1x128 .f32) = rowOf (m ((c : Thread nD τ).loc main_arg6)) := by
  show StableHlo.after hostOps0_4 (W4 m ρ c) (Proc.devRef .tc main_v22) = _
  after_results
  funext i
  obtain ⟨p, q, rfl⟩ : ∃ (p : Fin 1) (q : Fin 128), i = ValueIdx.ix2 p q := ⟨i 0, i 1, ValueIdx.eq_ix2 i⟩
  rw [Cert.Spec.rowOf_apply]
  exact ValueIdx.shapeCast_a_1a_apply (m ((c : Thread nD τ).loc main_arg6)) shapeCasts_S128_S1x128 p q

theorem W5_main_v23 : (W5 m ρ c (Proc.devRef .tc main_v23) : Vec Ideal S1x40 .f32) = rowOf (m ((c : Thread nD τ).loc main_arg8)) := by
  show StableHlo.after hostOps0_4 (W4 m ρ c) (Proc.devRef .tc main_v23) = _
  after_results
  funext i
  obtain ⟨p, q, rfl⟩ : ∃ (p : Fin 1) (q : Fin 40), i = ValueIdx.ix2 p q := ⟨i 0, i 1, ValueIdx.eq_ix2 i⟩
  rw [Cert.Spec.rowOf_apply]
  exact ValueIdx.shapeCast_a_1a_apply (m ((c : Thread nD τ).loc main_arg8)) shapeCasts_S40_S1x40 p q

end Cert.KernelIdeal.Fold

end
-- ==== Proof.KFoldStatic.lean ====
/-
  What the buffers that do not change between the regions hold at each LATER region's entry: no later host operation
  writes them, and a region that reads one through an input window leaves it as it found it, so reading one at a later boundary
  walks back, boundary by boundary, to the first region's entry (KFoldBase).
-/
import proofs.«180997_j2800318677548_1_alg».proof.Proof.Gen.KernelIdeal.Frame
import proofs.«180997_j2800318677548_1_alg».proof.Proof.KForm
import proofs.«180997_j2800318677548_1_alg».proof.Proof.Spec
import proofs.«180997_j2800318677548_1_alg».proof.Proof.KFoldBase
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fold

open Cert.KernelIdeal Cert.KernelIdeal.Gen Cert.KernelIdeal.Form Idealize.ShloMosaic Idealize.ShloMosaic.TcCoe Idealize.SL.Sem
open Idealize.ShloMosaic.Pipeline (Dat)
open Cert.Spec (colOf rowOf)

variable (m : (ℓ : Loc nD τ sig) → Buf (Elt Ideal) ℓ) (ρ : Dev nD → PrngReg) (c : Dev nD)

/-! ## A host stretch leaves the buffers it does not write

Each operation of a host stretch writes its one result buffer; a buffer that is none of them reads after the stretch as before it. -/

/-- The stretch `ops` does not write buffer `b`: every operation's result buffer is another one. -/
local macro "host_untouched " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ### The stretch between `W6` and `W7` -/

private theorem W7_W6_main_v20 : W7 m ρ c (Proc.devRef .tc main_v20) = W6 m ρ c (Proc.devRef .tc main_v20) := by
  host_untouched hostOps1 main_v20

private theorem W7_W6_main_arg3 : W7 m ρ c (Proc.devRef .tc main_arg3) = W6 m ρ c (Proc.devRef .tc main_arg3) := by
  host_untouched hostOps1 main_arg3

private theorem W7_W6_main_v21 : W7 m ρ c (Proc.devRef .tc main_v21) = W6 m ρ c (Proc.devRef .tc main_v21) := by
  host_untouched hostOps1 main_v21

private theorem W7_W6_main_v13 : W7 m ρ c (Proc.devRef .tc main_v13) = W6 m ρ c (Proc.devRef .tc main_v13) := by
  host_untouched hostOps1 main_v13

private theorem W7_W6_main_arg5 : W7 m ρ c (Proc.devRef .tc main_arg5) = W6 m ρ c (Proc.devRef .tc main_arg5) := by
  host_untouched hostOps1 main_arg5

private theorem W7_W6_main_v22 : W7 m ρ c (Proc.devRef .tc main_v22) = W6 m ρ c (Proc.devRef .tc main_v22) := by
  host_untouched hostOps1 main_v22

private theorem W7_W6_main_arg7 : W7 m ρ c (Proc.devRef .tc main_arg7) = W6 m ρ c (Proc.devRef .tc main_arg7) := by
  host_untouched hostOps1 main_arg7

private theorem W7_W6_main_v23 : W7 m ρ c (Proc.devRef .tc main_v23) = W6 m ρ c (Proc.devRef .tc main_v23) := by
  host_untouched hostOps1 main_v23

private theorem W7_W6_main_arg1 : W7 m ρ c (Proc.devRef .tc main_arg1) = W6 m ρ c (Proc.devRef .tc main_arg1) := by
  host_untouched hostOps1 main_arg1

private theorem W7_W6_main_arg2 : W7 m ρ c (Proc.devRef .tc main_arg2) = W6 m ρ c (Proc.devRef .tc main_arg2) := by
  host_untouched hostOps1 main_arg2

/-! ### The stretch between `W8` and `W9` -/

private theorem W9_W8_main_v20 : W9 m ρ c (Proc.devRef .tc main_v20) = W8 m ρ c (Proc.devRef .tc main_v20) := by
  host_untouched hostOps2 main_v20

private theorem W9_W8_main_arg5 : W9 m ρ c (Proc.devRef .tc main_arg5) = W8 m ρ c (Proc.devRef .tc main_arg5) := by
  host_untouched hostOps2 main_arg5

private theorem W9_W8_main_v22 : W9 m ρ c (Proc.devRef .tc main_v22) = W8 m ρ c (Proc.devRef .tc main_v22) := by
  host_untouched hostOps2 main_v22

private theorem W9_W8_main_arg7 : W9 m ρ c (Proc.devRef .tc main_arg7) = W8 m ρ c (Proc.devRef .tc main_arg7) := by
  host_untouched hostOps2 main_arg7

private theorem W9_W8_main_v13 : W9 m ρ c (Proc.devRef .tc main_v13) = W8 m ρ c (Proc.devRef .tc main_v13) := by
  host_untouched hostOps2 main_v13

private theorem W9_W8_main_v23 : W9 m ρ c (Proc.devRef .tc main_v23) = W8 m ρ c (Proc.devRef .tc main_v23) := by
  host_untouched hostOps2 main_v23

private theorem W9_W8_main_arg1 : W9 m ρ c (Proc.devRef .tc main_arg1) = W8 m ρ c (Proc.devRef .tc main_arg1) := by
  host_untouched hostOps2 main_arg1

private theorem W9_W8_main_arg2 : W9 m ρ c (Proc.devRef .tc main_arg2) = W8 m ρ c (Proc.devRef .tc main_arg2) := by
  host_untouched hostOps2 main_arg2

/-! ### The stretch between `W11` and `W12` -/

private theorem W12_W11_main_v20 : W12 m ρ c (Proc.devRef .tc main_v20) = W11 m ρ c (Proc.devRef .tc main_v20) := by
  host_untouched hostOps4 main_v20

private theorem W12_W11_main_v23 : W12 m ρ c (Proc.devRef .tc main_v23) = W11 m ρ c (Proc.devRef .tc main_v23) := by
  host_untouched hostOps4 main_v23

/-! ## A region leaves the buffers it does not write

A region writes its output array alone: a buffer that is none of its arrays reads at its exit as at its entry, and so does an array it
reads through an input window. -/

/-! ### Region 0 (`W5` to `W6`): arrays `main_arg0`, `main_v13` (inputs), `main_v24` (output) -/

private theorem W6_W5_main_v20 : W6 m ρ c (Proc.devRef .tc main_v20) = W5 m ρ c (Proc.devRef .tc main_v20) :=
  W6_of_ne m ρ c main_v20 (by decide)

private theorem W6_W5_main_arg3 : W6 m ρ c (Proc.devRef .tc main_arg3) = W5 m ρ c (Proc.devRef .tc main_arg3) :=
  W6_of_ne m ρ c main_arg3 (by decide)

private theorem W6_W5_main_v21 : W6 m ρ c (Proc.devRef .tc main_v21) = W5 m ρ c (Proc.devRef .tc main_v21) :=
  W6_of_ne m ρ c main_v21 (by decide)

private theorem W6_W5_main_arg5 : W6 m ρ c (Proc.devRef .tc main_arg5) = W5 m ρ c (Proc.devRef .tc main_arg5) :=
  W6_of_ne m ρ c main_arg5 (by decide)

private theorem W6_W5_main_v22 : W6 m ρ c (Proc.devRef .tc main_v22) = W5 m ρ c (Proc.devRef .tc main_v22) :=
  W6_of_ne m ρ c main_v22 (by decide)

private theorem W6_W5_main_arg7 : W6 m ρ c (Proc.devRef .tc main_arg7) = W5 m ρ c (Proc.devRef .tc main_arg7) :=
  W6_of_ne m ρ c main_arg7 (by decide)

private theorem W6_W5_main_v23 : W6 m ρ c (Proc.devRef .tc main_v23) = W5 m ρ c (Proc.devRef .tc main_v23) :=
  W6_of_ne m ρ c main_v23 (by decide)

private theorem W6_W5_main_arg1 : W6 m ρ c (Proc.devRef .tc main_arg1) = W5 m ρ c (Proc.devRef .tc main_arg1) :=
  W6_of_ne m ρ c main_arg1 (by decide)

private theorem W6_W5_main_arg2 : W6 m ρ c (Proc.devRef .tc main_arg2) = W5 m ρ c (Proc.devRef .tc main_arg2) :=
  W6_of_ne m ρ c main_arg2 (by decide)

private theorem W6_W5_main_v13 : W6 m ρ c (Proc.devRef .tc main_v13) = W5 m ρ c (Proc.devRef .tc main_v13) :=
  (W6_arr m ρ c 1).trans (((dat0 (V5 m ρ) c).arrAt_in 1 rfl _).trans (A_eq0 (V5 m ρ) c 1))

/-! ### Region 1 (`W7` to `W8`): arrays `main_v34`, `main_v20`, `main_arg3`, `main_v21`, `main_v13` (inputs), `main_v35` (output) -/

private theorem W8_W7_main_arg5 : W8 m ρ c (Proc.devRef .tc main_arg5) = W7 m ρ c (Proc.devRef .tc main_arg5) :=
  W8_of_ne m ρ c main_arg5 (by decide)

private theorem W8_W7_main_v22 : W8 m ρ c (Proc.devRef .tc main_v22) = W7 m ρ c (Proc.devRef .tc main_v22) :=
  W8_of_ne m ρ c main_v22 (by decide)

private theorem W8_W7_main_arg7 : W8 m ρ c (Proc.devRef .tc main_arg7) = W7 m ρ c (Proc.devRef .tc main_arg7) :=
  W8_of_ne m ρ c main_arg7 (by decide)

private theorem W8_W7_main_v23 : W8 m ρ c (Proc.devRef .tc main_v23) = W7 m ρ c (Proc.devRef .tc main_v23) :=
  W8_of_ne m ρ c main_v23 (by decide)

private theorem W8_W7_main_arg1 : W8 m ρ c (Proc.devRef .tc main_arg1) = W7 m ρ c (Proc.devRef .tc main_arg1) :=
  W8_of_ne m ρ c main_arg1 (by decide)

private theorem W8_W7_main_arg2 : W8 m ρ c (Proc.devRef .tc main_arg2) = W7 m ρ c (Proc.devRef .tc main_arg2) :=
  W8_of_ne m ρ c main_arg2 (by decide)

private theorem W8_W7_main_v20 : W8 m ρ c (Proc.devRef .tc main_v20) = W7 m ρ c (Proc.devRef .tc main_v20) :=
  (W8_arr m ρ c 1).trans (((dat1 (V7 m ρ) c).arrAt_in 1 rfl _).trans (A_eq1 (V7 m ρ) c 1))

private theorem W8_W7_main_v13 : W8 m ρ c (Proc.devRef .tc main_v13) = W7 m ρ c (Proc.devRef .tc main_v13) :=
  (W8_arr m ρ c 4).trans (((dat1 (V7 m ρ) c).arrAt_in 4 rfl _).trans (A_eq1 (V7 m ρ) c 4))

/-! ### Region 2 (`W9` to `W10`): arrays `main_v45`, `main_v20`, `main_arg5`, `main_v22` (inputs), `main_v46` (output) -/

private theorem W10_W9_main_arg7 : W10 m ρ c (Proc.devRef .tc main_arg7) = W9 m ρ c (Proc.devRef .tc main_arg7) :=
  W10_of_ne m ρ c main_arg7 (by decide)

private theorem W10_W9_main_v13 : W10 m ρ c (Proc.devRef .tc main_v13) = W9 m ρ c (Proc.devRef .tc main_v13) :=
  W10_of_ne m ρ c main_v13 (by decide)

private theorem W10_W9_main_v23 : W10 m ρ c (Proc.devRef .tc main_v23) = W9 m ρ c (Proc.devRef .tc main_v23) :=
  W10_of_ne m ρ c main_v23 (by decide)

private theorem W10_W9_main_arg1 : W10 m ρ c (Proc.devRef .tc main_arg1) = W9 m ρ c (Proc.devRef .tc main_arg1) :=
  W10_of_ne m ρ c main_arg1 (by decide)

private theorem W10_W9_main_arg2 : W10 m ρ c (Proc.devRef .tc main_arg2) = W9 m ρ c (Proc.devRef .tc main_arg2) :=
  W10_of_ne m ρ c main_arg2 (by decide)

private theorem W10_W9_main_v20 : W10 m ρ c (Proc.devRef .tc main_v20) = W9 m ρ c (Proc.devRef .tc main_v20) :=
  (W10_arr m ρ c 1).trans (((dat2 (V9 m ρ) c).arrAt_in 1 rfl _).trans (A_eq2 (V9 m ρ) c 1))

/-! ### Region 3 (`W10` to `W11`): arrays `main_v46`, `main_arg7`, `main_v13` (inputs), `main_v47` (output) -/

private theorem W11_W10_main_v20 : W11 m ρ c (Proc.devRef .tc main_v20) = W10 m ρ c (Proc.devRef .tc main_v20) :=
  W11_of_ne m ρ c main_v20 (by decide)

private theorem W11_W10_main_v23 : W11 m ρ c (Proc.devRef .tc main_v23) = W10 m ρ c (Proc.devRef .tc main_v23) :=
  W11_of_ne m ρ c main_v23 (by decide)

private theorem W11_W10_main_arg1 : W11 m ρ c (Proc.devRef .tc main_arg1) = W10 m ρ c (Proc.devRef .tc main_arg1) :=
  W11_of_ne m ρ c main_arg1 (by decide)

private theorem W11_W10_main_arg2 : W11 m ρ c (Proc.devRef .tc main_arg2) = W10 m ρ c (Proc.devRef .tc main_arg2) :=
  W11_of_ne m ρ c main_arg2 (by decide)

/-! ## Region 1's entry -/

theorem W7_main_v20 : (W7 m ρ c (Proc.devRef .tc main_v20) : Vec Ideal S50000x1 .f32) = colOf (inv (F := Ideal) (m ((c : Thread nD τ).loc main_arg2))) :=
  (W7_W6_main_v20 m ρ c).trans ((W6_W5_main_v20 m ρ c).trans ((W5_main_v20 m ρ c)))

theorem W7_main_arg3 : (W7 m ρ c (Proc.devRef .tc main_arg3) : Vec Ideal S128x128 .f32) = (m ((c : Thread nD τ).loc main_arg3)) :=
  (W7_W6_main_arg3 m ρ c).trans ((W6_W5_main_arg3 m ρ c).trans ((W5_main_arg3 m ρ c)))

theorem W7_main_v21 : (W7 m ρ c (Proc.devRef .tc main_v21) : Vec Ideal S1x128 .f32) = rowOf (m ((c : Thread nD τ).loc main_arg4)) :=
  (W7_W6_main_v21 m ρ c).trans ((W6_W5_main_v21 m ρ c).trans ((W5_main_v21 m ρ c)))

theorem W7_main_v13 : (W7 m ρ c (Proc.devRef .tc main_v13) : Vec Ideal S50000x1 .f32) = colOf (inv (F := Ideal) (m ((c : Thread nD τ).loc main_arg1))) :=
  (W7_W6_main_v13 m ρ c).trans ((W6_W5_main_v13 m ρ c).trans ((W5_main_v13 m ρ c)))

/-! ## Region 2's entry -/

theorem W9_main_v20 : (W9 m ρ c (Proc.devRef .tc main_v20) : Vec Ideal S50000x1 .f32) = colOf (inv (F := Ideal) (m ((c : Thread nD τ).loc main_arg2))) :=
  (W9_W8_main_v20 m ρ c).trans ((W8_W7_main_v20 m ρ c).trans ((W7_main_v20 m ρ c)))

theorem W9_main_arg5 : (W9 m ρ c (Proc.devRef .tc main_arg5) : Vec Ideal S128x128 .f32) = (m ((c : Thread nD τ).loc main_arg5)) :=
  (W9_W8_main_arg5 m ρ c).trans ((W8_W7_main_arg5 m ρ c).trans ((W7_W6_main_arg5 m ρ c).trans ((W6_W5_main_arg5 m ρ c).trans ((W5_main_arg5 m ρ c)))))

theorem W9_main_v22 : (W9 m ρ c (Proc.devRef .tc main_v22) : Vec Ideal S1x128 .f32) = rowOf (m ((c : Thread nD τ).loc main_arg6)) :=
  (W9_W8_main_v22 m ρ c).trans ((W8_W7_main_v22 m ρ c).trans ((W7_W6_main_v22 m ρ c).trans ((W6_W5_main_v22 m ρ c).trans ((W5_main_v22 m ρ c)))))

/-! ## Region 3's entry (region 2's exit) -/

theorem W10_main_arg7 : (W10 m ρ c (Proc.devRef .tc main_arg7) : Vec Ideal S128x40 .f32) = (m ((c : Thread nD τ).loc main_arg7)) :=
  (W10_W9_main_arg7 m ρ c).trans ((W9_W8_main_arg7 m ρ c).trans ((W8_W7_main_arg7 m ρ c).trans ((W7_W6_main_arg7 m ρ c).trans ((W6_W5_main_arg7 m ρ c).trans ((W5_main_arg7 m ρ c))))))

theorem W10_main_v13 : (W10 m ρ c (Proc.devRef .tc main_v13) : Vec Ideal S50000x1 .f32) = colOf (inv (F := Ideal) (m ((c : Thread nD τ).loc main_arg1))) :=
  (W10_W9_main_v13 m ρ c).trans ((W9_W8_main_v13 m ρ c).trans ((W8_W7_main_v13 m ρ c).trans ((W7_main_v13 m ρ c))))

/-! ## Region 4's entry -/

theorem W12_main_v20 : (W12 m ρ c (Proc.devRef .tc main_v20) : Vec Ideal S50000x1 .f32) = colOf (inv (F := Ideal) (m ((c : Thread nD τ).loc main_arg2))) :=
  (W12_W11_main_v20 m ρ c).trans ((W11_W10_main_v20 m ρ c).trans ((W10_W9_main_v20 m ρ c).trans ((W9_main_v20 m ρ c))))

theorem W12_main_v23 : (W12 m ρ c (Proc.devRef .tc main_v23) : Vec Ideal S1x40 .f32) = rowOf (m ((c : Thread nD τ).loc main_arg8)) :=
  (W12_W11_main_v23 m ρ c).trans ((W11_W10_main_v23 m ρ c).trans ((W10_W9_main_v23 m ρ c).trans ((W9_W8_main_v23 m ρ c).trans ((W8_W7_main_v23 m ρ c).trans ((W7_W6_main_v23 m ρ c).trans ((W6_W5_main_v23 m ρ c).trans ((W5_main_v23 m ρ c))))))))

/-! ## The index arrays where a host stretch between regions reads them -/

theorem W6_main_arg1 : (W6 m ρ c (Proc.devRef .tc main_arg1) : Vec Ideal S800000 .i32) = (m ((c : Thread nD τ).loc main_arg1)) :=
  (W6_W5_main_arg1 m ρ c).trans ((W5_main_arg1 m ρ c))

theorem W6_main_arg2 : (W6 m ρ c (Proc.devRef .tc main_arg2) : Vec Ideal S800000 .i32) = (m ((c : Thread nD τ).loc main_arg2)) :=
  (W6_W5_main_arg2 m ρ c).trans ((W5_main_arg2 m ρ c))

theorem W8_main_arg1 : (W8 m ρ c (Proc.devRef .tc main_arg1) : Vec Ideal S800000 .i32) = (m ((c : Thread nD τ).loc main_arg1)) :=
  (W8_W7_main_arg1 m ρ c).trans ((W7_W6_main_arg1 m ρ c).trans ((W6_main_arg1 m ρ c)))

theorem W8_main_arg2 : (W8 m ρ c (Proc.devRef .tc main_arg2) : Vec Ideal S800000 .i32) = (m ((c : Thread nD τ).loc main_arg2)) :=
  (W8_W7_main_arg2 m ρ c).trans ((W7_W6_main_arg2 m ρ c).trans ((W6_main_arg2 m ρ c)))

theorem W11_main_arg1 : (W11 m ρ c (Proc.devRef .tc main_arg1) : Vec Ideal S800000 .i32) = (m ((c : Thread nD τ).loc main_arg1)) :=
  (W11_W10_main_arg1 m ρ c).trans ((W10_W9_main_arg1 m ρ c).trans ((W9_W8_main_arg1 m ρ c).trans ((W8_main_arg1 m ρ c))))

theorem W11_main_arg2 : (W11 m ρ c (Proc.devRef .tc main_arg2) : Vec Ideal S800000 .i32) = (m ((c : Thread nD τ).loc main_arg2)) :=
  (W11_W10_main_arg2 m ρ c).trans ((W10_W9_main_arg2 m ρ c).trans ((W9_W8_main_arg2 m ρ c).trans ((W8_main_arg2 m ρ c))))

end Cert.KernelIdeal.Fold

end
-- ==== Proof.PayRest.lean ====
import proofs.«180997_j2800318677548_1_alg».proof.Proof.Gen.KernelIdeal.Skeleton
import proofs.«180997_j2800318677548_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The column broadcast

A one-column array `[a, 1]` broadcast to `[a, b]` repeats its column: at `(p, c)` it reads the column's entry of row `p`. -/

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product `[5000, 128] · [128, 40]` as a sum

The dimension numbers contract the left operand's axis 1 with the right operand's axis 0; the left operand's axis 0 and the
right operand's axis 1 are the result's rows and columns. So at result index `(p, q)` and contraction coordinate `k` the two
operand indices are `(p, k)` and `(k, q)`. -/

/-- The left operand's row is the result's row. -/
private theorem lhs_ax0 (i : S5000x40.Idx) (c : dot_S5000x128_S128x40_S5000x40_1_0_0_1_n_n.contr.Idx) :
    (dot_S5000x128_S128x40_S5000x40_1_0_0_1_n_n.lhsIdx i c 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl

/-- The left operand's column is the contraction coordinate. -/
private theorem lhs_ax1 (i : S5000x40.Idx) (c : dot_S5000x128_S128x40_S5000x40_1_0_0_1_n_n.contr.Idx) :
    (dot_S5000x128_S128x40_S5000x40_1_0_0_1_n_n.lhsIdx i c 1).val = (c ⟨0, by decide⟩).val :=
  dot_S5000x128_S128x40_S5000x40_1_0_0_1_n_n.lhsIdx_val_of_single rfl i c

/-- The right operand's row is the contraction coordinate. -/
private theorem rhs_ax0 (i : S5000x40.Idx) (c : dot_S5000x128_S128x40_S5000x40_1_0_0_1_n_n.contr.Idx) :
    (dot_S5000x128_S128x40_S5000x40_1_0_0_1_n_n.rhsIdx i c 0).val = (c ⟨0, by decide⟩).val :=
  dot_S5000x128_S128x40_S5000x40_1_0_0_1_n_n.rhsIdx_val_of_single rfl i c

/-- The right operand's column is the result's column. -/
private theorem rhs_ax1 (i : S5000x40.Idx) (c : dot_S5000x128_S128x40_S5000x40_1_0_0_1_n_n.contr.Idx) :
    (dot_S5000x128_S128x40_S5000x40_1_0_0_1_n_n.rhsIdx i c 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- The product into a zero accumulator, read at `(p, q)`: the sum over `k` of `A[p,k] · B[k,q]`. -/
private theorem matmul_zero_apply {φ₁ φ₂ : FTy} (A : FVec Ideal S5000x128 φ₁) (B : FVec Ideal S128x40 φ₂) (p : Fin 5000) (q : Fin 40) :
    matmul (F := Ideal) dot_S5000x128_S128x40_S5000x40_1_0_0_1_n_n none A B (constant (F := Ideal) S5000x40 .f32 0x00000000#32) (ix2 p q)
      = ∑ k : Fin 128, A (ix2 p k) * B (ix2 k q) := by
  simp only [matmul]
  rw [Ideal.matmul_constant_zero_apply,
    ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q)
      ((contrEquiv1 dot_S5000x128_S128x40_S5000x40_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x40_S5000x40_1_0_0_1_n_n.rhsIdx (ix2 p q)
      ((contrEquiv1 dot_S5000x128_S128x40_S5000x40_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-! ## The three payloads -/

theorem pay0 (x0 : Vec Ideal S5000x128 .f32) (x1 : Vec Ideal S5000x1 .f32) :
    k0_pay1 (F := Ideal) x0 x1 = Cert.Spec.scaleRows x0 x1 := by
  funext j
  obtain ⟨p, q, rfl⟩ : ∃ (p : Fin 5000) (q : Fin 128), j = ix2 p q := ⟨j 0, j 1, eq_ix2 j⟩
  rw [Cert.Spec.scaleRows_apply]
  unfold k0_pay1
  refine (mulf_apply _ _ _).trans ?_
  rw [shapeCast_self]
  exact congrArg (x0 (ix2 p q) * ·) (broadcastTo_a1_ab_apply x1 _ p q)

theorem pay3 (x0 : Vec Ideal S5000x128 .f32) (x1 : Vec Ideal S128x40 .f32) (x2 : Vec Ideal S5000x1 .f32) :
    k3_pay1 (F := Ideal) x0 x1 x2 = Cert.Spec.projScale x0 x1 x2 := by
  funext j
  obtain ⟨p, q, rfl⟩ : ∃ (p : Fin 5000) (q : Fin 40), j = ix2 p q := ⟨j 0, j 1, eq_ix2 j⟩
  rw [Cert.Spec.projScale_apply]
  unfold k3_pay1
  refine (mulf_apply _ _ _).trans ?_
  rw [shapeCast_self, shapeCast_self]
  refine congrArg₂ (· * ·) ?_ (broadcastTo_a1_ab_apply x2 _ p q)
  refine (matmul_zero_apply _ _ p q).trans ?_
  rfl

theorem pay4 (x0 : Vec Ideal S5000x40 .f32) (x1 : Vec Ideal S5000x1 .f32) (x2 : Vec Ideal S1x40 .f32) :
    k4_pay1 (F := Ideal) x0 x1 x2 = Cert.Spec.scaleBias x0 x1 x2 := by
  funext j
  obtain ⟨p, q, rfl⟩ : ∃ (p : Fin 5000) (q : Fin 40), j = ix2 p q := ⟨j 0, j 1, eq_ix2 j⟩
  rw [Cert.Spec.scaleBias_apply]
  unfold k4_pay1
  refine (addf_apply _ _ _).trans ?_
  rw [shapeCast_self, shapeCast_self, shapeCast_self]
  refine congrArg₂ (· + ·) ?_ (broadcastTo_1b_ab_apply x2 _ p q)
  refine (mulf_apply _ _ _).trans ?_
  exact congrArg (x0 (ix2 p q) * ·) (broadcastTo_a1_ab_apply x1 _ p q)

end Cert.KernelIdeal.Pay

end
-- ==== Proof.Region0.lean ====
/-
  Region 0 (each row of the features scaled by its source factor), from blocks to the whole array: whatever the buffers
  hold when the region is entered, after it the output array is `scaleRows` of the two input arrays. Point `t` of the
  ten-point grid fetches rows 5000·t … 5000·t + 4999 of both inputs and writes the same rows of the output; the body is
  row-local, so block `t` of the result is the function applied to block `t` of the inputs, and the ten blocks tile
  the array.
-/
import proofs.«180997_j2800318677548_1_alg».proof.Proof.Gen.KernelIdeal.Frame
import proofs.«180997_j2800318677548_1_alg».proof.Proof.PayRest
import proofs.«180997_j2800318677548_1_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Cert.Spec (rowBlk scaleRows)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block index at point `t` is `(t, 0)`, and there are ten points. -/
theorem idx : ∀ t : Fin cfg0.N, t.val < 10
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem hrows (t : Fin cfg0.N) : 5000 * (t.val + 1) ≤ 50000 := by have := (idx t).1; omega

/-- The features' block at point `t` is rows 5000·t … of the array. -/
theorem blk_x (c : Dev nD) (t : Fin cfg0.N) :
    (iblk0 V c 0 t : Vec Ideal S5000x128 .f32) = rowBlk 5000 t.val (hrows t) (V c main_arg0 : Vec Ideal S50000x128 .f32) := by
  obtain ⟨-, e0, e1, -⟩ := idx t
  funext j
  unfold iblk0
  rw [View.read_apply]
  show V c main_arg0 _ = V c main_arg0 _
  congr 1
  funext a
  apply Fin.ext
  match a with
  | ⟨0, _⟩ => show win0_0.index t 0 * 5000 + 1 * (j 0).val = 5000 * t.val + (j 0).val; rw [e0]; omega
  | ⟨1, _⟩ => show win0_0.index t 1 * 128 + 1 * (j 1).val = (j 1).val; rw [e1]; omega

/-- The factor column's block at point `t` is the same rows of the column. -/
theorem blk_s (c : Dev nD) (t : Fin cfg0.N) :
    (iblk0 V c 1 t : Vec Ideal S5000x1 .f32) = rowBlk 5000 t.val (hrows t) (V c main_v13 : Vec Ideal S50000x1 .f32) := by
  obtain ⟨-, -, -, e0, e1, -⟩ := idx t
  funext j
  unfold iblk0
  rw [View.read_apply]
  show V c main_v13 _ = V c main_v13 _
  congr 1
  funext a
  apply Fin.ext
  match a with
  | ⟨0, _⟩ => show win0_1.index t 0 * 5000 + 1 * (j 0).val = 5000 * t.val + (j 0).val; rw [e0]; omega
  | ⟨1, _⟩ => show win0_1.index t 1 * 1 + 1 * (j 1).val = (j 1).val; rw [e1]; omega

/-- Reading the output window's block `t` off an array takes the same rows. -/
theorem blk_out (t : Fin cfg0.N) (G : Vec Ideal S50000x128 .f32) :
    (((cfg0.win 2).blk t).view.read (Elt Ideal) G : Vec Ideal S5000x128 .f32) = rowBlk 5000 t.val (hrows t) G := by
  obtain ⟨-, -, -, -, -, e0, e1⟩ := idx t
  funext j
  rw [View.read_apply]
  show G _ = G _
  congr 1
  funext a
  apply Fin.ext
  match a with
  | ⟨0, _⟩ => show win0_2.index t 0 * 5000 + 1 * (j 0).val = 5000 * t.val + (j 0).val; rw [e0]; omega
  | ⟨1, _⟩ => show win0_2.index t 1 * 128 + 1 * (j 1).val = (j 1).val; rw [e1]; omega

/-- What point `t` writes back is block `t` of `scaleRows` of the arrays as the region finds them. -/
theorem flushed_eq (c : Dev nD) (t : Fin cfg0.N) :
    (dat0 V c).flushed 2 t = ((cfg0.win 2).blk t).view.read (Elt Ideal)
      (scaleRows (V c main_arg0 : Vec Ideal S50000x128 .f32) (V c main_v13 : Vec Ideal S50000x1 .f32)) := by
  rw [blk_out]
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  rw [Cert.KernelIdeal.Pay.pay0, blk_x, blk_s, Cert.Spec.scaleRows_rowBlk]
  rfl

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v24).slice (win0_2.rect t)).set ↔ _
  rw [View.set_slice_whole, Rect.mem_set_unit]
  exact Iff.rfl

/-- Every row is in exactly the block of the point `row / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  rw [mem_blk]
  obtain ⟨-, -, -, -, -, e0, e1⟩ := idx ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e0]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e1]; omega

/-- THE ARRAY after region 0, whatever it was entered from. -/
theorem arr (c : Dev nD) :
    (dat0 V c).arrAt 2 cfg0.N = scaleRows (V c main_arg0 : Vec Ideal S50000x128 .f32) (V c main_v13 : Vec Ideal S50000x1 .f32) :=
  (dat0 V c).arrAt_eq_of_cover 2 _ (fun t _ => flushed_eq V c t) cover

end Cert.KernelIdeal.Region0

end
-- ==== Proof.PayConv.lean ====
import proofs.«180997_j2800318677548_1_alg».proof.Proof.Gen.KernelIdeal.Skeleton
import proofs.«180997_j2800318677548_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The layout operations of the payload, read at coordinates -/

/-- A one-column array `[a, 1]` broadcast to `[a, b]` reads, at `(p, c)`, the operand's column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block product read at coordinates

The product contracts the left operand's axis 1 with the right operand's axis 0; the four lemmas below read the two
operand indices, at an output index and a contraction index, one axis at a time. -/

private theorem lhs_dot_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  simp only [Fin.val_cast]
  have key : ∀ (a b : Nat) (ha : a < S5000x128.rank) (hb : b < S5000x128.rank), a = b → (j ⟨a, ha⟩).val = (j ⟨b, hb⟩).val :=
    fun a b ha hb h => by subst h; rfl
  exact key _ _ _ _ (by decide)

private theorem lhs_dot_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  DotDims.lhsIdx_val_of_single dot_S5000x128_S128x128_S5000x128_1_0_0_1_n_n (cl := 1) rfl j k

private theorem rhs_dot_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  DotDims.rhsIdx_val_of_single dot_S5000x128_S128x128_S5000x128_1_0_0_1_n_n (cr := 0) rfl j k

private theorem rhs_dot_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  simp only [Fin.val_cast]
  have key : ∀ (a b : Nat) (ha : a < S5000x128.rank) (hb : b < S5000x128.rank), a = b → (j ⟨a, ha⟩).val = (j ⟨b, hb⟩).val :=
    fun a b ha hb h => by subst h; rfl
  exact key _ _ _ _ (by decide)

/-- The block product into a zero accumulator, read at `(p, q)`, is the sum over the contracted coordinate of the
    products of the operands' entries. -/
private theorem matmul_zero_at (A : FVec Ideal S5000x128 .bf16) (B : FVec Ideal S128x128 .bf16) (p : Fin 5000) (q : Fin 128) :
    matmul (F := Ideal) dot_S5000x128_S128x128_S5000x128_1_0_0_1_n_n none A B
        (constant (F := Ideal) S5000x128 .f32 0x00000000#32) (ix2 p q)
      = ∑ k : Fin 128, A (ix2 p k) * B (ix2 k q) := by
  show FloatOps.matmul dot_S5000x128_S128x128_S5000x128_1_0_0_1_n_n none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => exact lhs_dot_0 _ _
    | ⟨1, _⟩ => exact (lhs_dot_1 _ _).trans c2
  have r2 : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => exact (rhs_dot_0 _ _).trans c2
    | ⟨1, _⟩ => exact rhs_dot_1 _ _
  rw [l2, r2]

/-- The dense half of a layer read at `(p, q)`: row `p` scaled by its factor, projected, biased, clamped at zero. -/
private theorem conv_at (x0 : Vec Ideal S5000x128 .f32) (x1 : Vec Ideal S5000x1 .f32) (x2 : Vec Ideal S128x128 .f32)
    (x3 : Vec Ideal S1x128 .f32) (p : Fin 5000) (q : Fin 128) :
    k2_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k2_pay1
  rw [maximumf_apply, addf_apply, broadcast_apply, matmul_zero_at, broadcastTo_1b_ab_apply, shapeCast_self,
    shapeCast_self, shapeCast_self]
  show max _ (Ideal.ofBits .f32 0x00000000#32) = _
  rw [Ideal.ofBits_zero_f32]
  refine congrArg (fun t => max (t + x3 (ix2 (0 : Fin 1) q)) 0) (Finset.sum_congr rfl fun k _ => ?_)
  rw [truncf_apply, truncf_apply, mulf_apply, broadcastTo_a1_ab_apply]

theorem pay1 (x0 : Vec Ideal S5000x128 .f32) (x1 : Vec Ideal S5000x1 .f32) (x2 : Vec Ideal S128x128 .f32)
    (x3 : Vec Ideal S1x128 .f32) (x4 : Vec Ideal S5000x1 .f32) :
    k1_pay1 (F := Ideal) x0 x1 x2 x3 x4 = Cert.Spec.convScale x0 x1 x2 x3 x4 := by
  funext j
  obtain ⟨p, q, rfl⟩ : ∃ (p : Fin 5000) (q : Fin 128), j = ix2 p q := ⟨j 0, j 1, eq_ix2 j⟩
  rw [Cert.Spec.convScale_apply]
  -- the payload is the dense half above, scaled row by row by the second factor
  show mulf (k2_pay1 (F := Ideal) x0 x1 x2 x3)
      (broadcastTo S5000x128 (shapeCast S5000x1 x4 shapeCasts_S5000x1_S5000x1) broadcasts_S5000x1_S5000x128) (ix2 p q) = _
  rw [mulf_apply, conv_at, broadcastTo_a1_ab_apply, shapeCast_self]

theorem pay2 (x0 : Vec Ideal S5000x128 .f32) (x1 : Vec Ideal S5000x1 .f32) (x2 : Vec Ideal S128x128 .f32)
    (x3 : Vec Ideal S1x128 .f32) :
    k2_pay1 (F := Ideal) x0 x1 x2 x3 = Cert.Spec.conv x0 x1 x2 x3 := by
  funext j
  obtain ⟨p, q, rfl⟩ : ∃ (p : Fin 5000) (q : Fin 128), j = ix2 p q := ⟨j 0, j 1, eq_ix2 j⟩
  rw [Cert.Spec.conv_apply]
  exact conv_at x0 x1 x2 x3 p q

end Cert.KernelIdeal.Pay

end
-- ==== Proof.Region1.lean ====
/-
  Region 1 (a layer's dense half and the next layer's row scaling), from blocks to the whole array: whatever the buffers hold when the region is entered, after it the
  output array is `convScale` of the input arrays. Point `t` of the ten-point grid fetches rows 5000·t … 5000·t + 4999 of
  every row-indexed input (the weight matrix and the bias row are fetched whole) and writes the same rows of the output; the body is row-local, so block `t` of
  the result is the function applied to block `t` of the inputs, and the ten blocks tile the array.
-/
import proofs.«180997_j2800318677548_1_alg».proof.Proof.Gen.KernelIdeal.Frame
import proofs.«180997_j2800318677548_1_alg».proof.Proof.PayConv
import proofs.«180997_j2800318677548_1_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Cert.Spec (rowBlk convScale)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index at point `t` is `(t, 0)`, a whole window's is
    `(0, 0)`, and there are ten points. -/
theorem idx : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem hrows (t : Fin cfg1.N) : 5000 * (t.val + 1) ≤ 50000 := by have := (idx t).1; omega

/-- The aggregated features's block at point `t` is rows 5000·t … of the array. -/
theorem blk_a (c : Dev nD) (t : Fin cfg1.N) :
    (iblk1 V c 0 t : Vec Ideal S5000x128 .f32) = rowBlk 5000 t.val (hrows t) (V c main_v34 : Vec Ideal S50000x128 .f32) := by
  obtain ⟨-, e0, e1, -, -, -, -, -, -, -, -, -, -⟩ := idx t
  funext j
  unfold iblk1
  rw [View.read_apply]
  show V c main_v34 _ = V c main_v34 _
  congr 1
  funext a
  apply Fin.ext
  match a with
  | ⟨0, _⟩ => show win1_0.index t 0 * 5000 + 1 * (j 0).val = 5000 * t.val + (j 0).val; rw [e0]; omega
  | ⟨1, _⟩ => show win1_0.index t 1 * 128 + 1 * (j 1).val = (j 1).val; rw [e1]; omega

/-- The destination factor column's block at point `t` is rows 5000·t … of the array. -/
theorem blk_s (c : Dev nD) (t : Fin cfg1.N) :
    (iblk1 V c 1 t : Vec Ideal S5000x1 .f32) = rowBlk 5000 t.val (hrows t) (V c main_v20 : Vec Ideal S50000x1 .f32) := by
  obtain ⟨-, -, -, e0, e1, -, -, -, -, -, -, -, -⟩ := idx t
  funext j
  unfold iblk1
  rw [View.read_apply]
  show V c main_v20 _ = V c main_v20 _
  congr 1
  funext a
  apply Fin.ext
  match a with
  | ⟨0, _⟩ => show win1_1.index t 0 * 5000 + 1 * (j 0).val = 5000 * t.val + (j 0).val; rw [e0]; omega
  | ⟨1, _⟩ => show win1_1.index t 1 * 1 + 1 * (j 1).val = (j 1).val; rw [e1]; omega

/-- The weight matrix's window is the whole array at every point. -/
theorem blk_W (c : Dev nD) (t : Fin cfg1.N) :
    (iblk1 V c 2 t : Vec Ideal S128x128 .f32) = (V c main_arg3 : Vec Ideal S128x128 .f32) := by
  obtain ⟨-, -, -, -, -, e0, e1, -, -, -, -, -, -⟩ := idx t
  funext j
  unfold iblk1
  rw [View.read_apply]
  show V c main_arg3 _ = V c main_arg3 j
  congr 1
  funext a
  apply Fin.ext
  match a with
  | ⟨0, _⟩ => show win1_2.index t 0 * 128 + 1 * (j 0).val = (j 0).val; rw [e0]; omega
  | ⟨1, _⟩ => show win1_2.index t 1 * 128 + 1 * (j 1).val = (j 1).val; rw [e1]; omega

/-- The bias row's window is the whole array at every point. -/
theorem blk_b (c : Dev nD) (t : Fin cfg1.N) :
    (iblk1 V c 3 t : Vec Ideal S1x128 .f32) = (V c main_v21 : Vec Ideal S1x128 .f32) := by
  obtain ⟨-, -, -, -, -, -, -, e0, e1, -, -, -, -⟩ := idx t
  funext j
  unfold iblk1
  rw [View.read_apply]
  show V c main_v21 _ = V c main_v21 j
  congr 1
  funext a
  apply Fin.ext
  match a with
  | ⟨0, _⟩ => show win1_3.index t 0 * 1 + 1 * (j 0).val = (j 0).val; rw [e0]; omega
  | ⟨1, _⟩ => show win1_3.index t 1 * 128 + 1 * (j 1).val = (j 1).val; rw [e1]; omega

/-- The source factor column's block at point `t` is rows 5000·t … of the array. -/
theorem blk_s' (c : Dev nD) (t : Fin cfg1.N) :
    (iblk1 V c 4 t : Vec Ideal S5000x1 .f32) = rowBlk 5000 t.val (hrows t) (V c main_v13 : Vec Ideal S50000x1 .f32) := by
  obtain ⟨-, -, -, -, -, -, -, -, -, e0, e1, -, -⟩ := idx t
  funext j
  unfold iblk1
  rw [View.read_apply]
  show V c main_v13 _ = V c main_v13 _
  congr 1
  funext a
  apply Fin.ext
  match a with
  | ⟨0, _⟩ => show win1_4.index t 0 * 5000 + 1 * (j 0).val = 5000 * t.val + (j 0).val; rw [e0]; omega
  | ⟨1, _⟩ => show win1_4.index t 1 * 1 + 1 * (j 1).val = (j 1).val; rw [e1]; omega

/-- Reading the output window's block `t` off an array takes the same rows. -/
theorem blk_out (t : Fin cfg1.N) (G : Vec Ideal S50000x128 .f32) :
    (((cfg1.win 5).blk t).view.read (Elt Ideal) G : Vec Ideal S5000x128 .f32) = rowBlk 5000 t.val (hrows t) G := by
  obtain ⟨-, -, -, -, -, -, -, -, -, -, -, e0, e1⟩ := idx t
  funext j
  rw [View.read_apply]
  show G _ = G _
  congr 1
  funext a
  apply Fin.ext
  match a with
  | ⟨0, _⟩ => show win1_5.index t 0 * 5000 + 1 * (j 0).val = 5000 * t.val + (j 0).val; rw [e0]; omega
  | ⟨1, _⟩ => show win1_5.index t 1 * 128 + 1 * (j 1).val = (j 1).val; rw [e1]; omega

/-- What point `t` writes back is block `t` of `convScale` of the arrays as the region finds them. -/
theorem flushed_eq (c : Dev nD) (t : Fin cfg1.N) :
    (dat1 V c).flushed 5 t = ((cfg1.win 5).blk t).view.read (Elt Ideal)
      (convScale (V c main_v34 : Vec Ideal S50000x128 .f32) (V c main_v20 : Vec Ideal S50000x1 .f32) (V c main_arg3 : Vec Ideal S128x128 .f32) (V c main_v21 : Vec Ideal S1x128 .f32) (V c main_v13 : Vec Ideal S50000x1 .f32)) := by
  rw [blk_out]
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S128x128) hz, View.ld_unit_zero (S := S1x128) hz]
  rw [Cert.KernelIdeal.Pay.pay1, blk_a, blk_s, blk_W, blk_b, blk_s', Cert.Spec.convScale_rowBlk]
  rfl

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v35).slice (win1_5.rect t)).set ↔ _
  rw [View.set_slice_whole, Rect.mem_set_unit]
  exact Iff.rfl

/-- Every row is in the block of the point `row / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk]
  obtain ⟨-, -, -, -, -, -, -, -, -, -, -, e0, e1⟩ := idx ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ _ ∧ _ < (i 0).val / 5000 * 5000 + 5000; omega
  | ⟨1, _⟩ => show win1_5.index _ (1 : Fin 2) * 128 ≤ (i 1).val ∧ (i 1).val < win1_5.index _ (1 : Fin 2) * 128 + 128; rw [e1]; omega

/-- THE ARRAY after region 1, whatever it was entered from. -/
theorem arr (c : Dev nD) :
    (dat1 V c).arrAt 5 cfg1.N = convScale (V c main_v34 : Vec Ideal S50000x128 .f32) (V c main_v20 : Vec Ideal S50000x1 .f32) (V c main_arg3 : Vec Ideal S128x128 .f32) (V c main_v21 : Vec Ideal S1x128 .f32) (V c main_v13 : Vec Ideal S50000x1 .f32) :=
  (dat1 V c).arrAt_eq_of_cover 5 _ (fun t _ => flushed_eq V c t) cover

end Cert.KernelIdeal.Region1

end
-- ==== Proof.Region2.lean ====
/-
  Region 2 (a layer's dense half), from blocks to the whole array: whatever the buffers hold when the region is entered, after it the
  output array is `conv` of the input arrays. Point `t` of the ten-point grid fetches rows 5000·t … 5000·t + 4999 of
  every row-indexed input (the weight matrix and the bias row are fetched whole) and writes the same rows of the output; the body is row-local, so block `t` of
  the result is the function applied to block `t` of the inputs, and the ten blocks tile the array.
-/
import proofs.«180997_j2800318677548_1_alg».proof.Proof.Gen.KernelIdeal.Frame
import proofs.«180997_j2800318677548_1_alg».proof.Proof.PayConv
import proofs.«180997_j2800318677548_1_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Cert.Spec (rowBlk conv)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index at point `t` is `(t, 0)`, a whole window's is
    `(0, 0)`, and there are ten points. -/
theorem idx : ∀ t : Fin cfg2.N, t.val < 10
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem hrows (t : Fin cfg2.N) : 5000 * (t.val + 1) ≤ 50000 := by have := (idx t).1; omega

/-- The aggregated features's block at point `t` is rows 5000·t … of the array. -/
theorem blk_a (c : Dev nD) (t : Fin cfg2.N) :
    (iblk2 V c 0 t : Vec Ideal S5000x128 .f32) = rowBlk 5000 t.val (hrows t) (V c main_v45 : Vec Ideal S50000x128 .f32) := by
  obtain ⟨-, e0, e1, -, -, -, -, -, -, -, -⟩ := idx t
  funext j
  unfold iblk2
  rw [View.read_apply]
  show V c main_v45 _ = V c main_v45 _
  congr 1
  funext a
  apply Fin.ext
  match a with
  | ⟨0, _⟩ => show win2_0.index t 0 * 5000 + 1 * (j 0).val = 5000 * t.val + (j 0).val; rw [e0]; omega
  | ⟨1, _⟩ => show win2_0.index t 1 * 128 + 1 * (j 1).val = (j 1).val; rw [e1]; omega

/-- The destination factor column's block at point `t` is rows 5000·t … of the array. -/
theorem blk_s (c : Dev nD) (t : Fin cfg2.N) :
    (iblk2 V c 1 t : Vec Ideal S5000x1 .f32) = rowBlk 5000 t.val (hrows t) (V c main_v20 : Vec Ideal S50000x1 .f32) := by
  obtain ⟨-, -, -, e0, e1, -, -, -, -, -, -⟩ := idx t
  funext j
  unfold iblk2
  rw [View.read_apply]
  show V c main_v20 _ = V c main_v20 _
  congr 1
  funext a
  apply Fin.ext
  match a with
  | ⟨0, _⟩ => show win2_1.index t 0 * 5000 + 1 * (j 0).val = 5000 * t.val + (j 0).val; rw [e0]; omega
  | ⟨1, _⟩ => show win2_1.index t 1 * 1 + 1 * (j 1).val = (j 1).val; rw [e1]; omega

/-- The weight matrix's window is the whole array at every point. -/
theorem blk_W (c : Dev nD) (t : Fin cfg2.N) :
    (iblk2 V c 2 t : Vec Ideal S128x128 .f32) = (V c main_arg5 : Vec Ideal S128x128 .f32) := by
  obtain ⟨-, -, -, -, -, e0, e1, -, -, -, -⟩ := idx t
  funext j
  unfold iblk2
  rw [View.read_apply]
  show V c main_arg5 _ = V c main_arg5 j
  congr 1
  funext a
  apply Fin.ext
  match a with
  | ⟨0, _⟩ => show win2_2.index t 0 * 128 + 1 * (j 0).val = (j 0).val; rw [e0]; omega
  | ⟨1, _⟩ => show win2_2.index t 1 * 128 + 1 * (j 1).val = (j 1).val; rw [e1]; omega

/-- The bias row's window is the whole array at every point. -/
theorem blk_b (c : Dev nD) (t : Fin cfg2.N) :
    (iblk2 V c 3 t : Vec Ideal S1x128 .f32) = (V c main_v22 : Vec Ideal S1x128 .f32) := by
  obtain ⟨-, -, -, -, -, -, -, e0, e1, -, -⟩ := idx t
  funext j
  unfold iblk2
  rw [View.read_apply]
  show V c main_v22 _ = V c main_v22 j
  congr 1
  funext a
  apply Fin.ext
  match a with
  | ⟨0, _⟩ => show win2_3.index t 0 * 1 + 1 * (j 0).val = (j 0).val; rw [e0]; omega
  | ⟨1, _⟩ => show win2_3.index t 1 * 128 + 1 * (j 1).val = (j 1).val; rw [e1]; omega

/-- Reading the output window's block `t` off an array takes the same rows. -/
theorem blk_out (t : Fin cfg2.N) (G : Vec Ideal S50000x128 .f32) :
    (((cfg2.win 4).blk t).view.read (Elt Ideal) G : Vec Ideal S5000x128 .f32) = rowBlk 5000 t.val (hrows t) G := by
  obtain ⟨-, -, -, -, -, -, -, -, -, e0, e1⟩ := idx t
  funext j
  rw [View.read_apply]
  show G _ = G _
  congr 1
  funext a
  apply Fin.ext
  match a with
  | ⟨0, _⟩ => show win2_4.index t 0 * 5000 + 1 * (j 0).val = 5000 * t.val + (j 0).val; rw [e0]; omega
  | ⟨1, _⟩ => show win2_4.index t 1 * 128 + 1 * (j 1).val = (j 1).val; rw [e1]; omega

/-- What point `t` writes back is block `t` of `conv` of the arrays as the region finds them. -/
theorem flushed_eq (c : Dev nD) (t : Fin cfg2.N) :
    (dat2 V c).flushed 4 t = ((cfg2.win 4).blk t).view.read (Elt Ideal)
      (conv (V c main_v45 : Vec Ideal S50000x128 .f32) (V c main_v20 : Vec Ideal S50000x1 .f32) (V c main_arg5 : Vec Ideal S128x128 .f32) (V c main_v22 : Vec Ideal S1x128 .f32)) := by
  rw [blk_out]
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S128x128) hz, View.ld_unit_zero (S := S1x128) hz]
  rw [Cert.KernelIdeal.Pay.pay2, blk_a, blk_s, blk_W, blk_b, Cert.Spec.conv_rowBlk]
  rfl

/-- An index of the array is in point `t`'s block iff each coordinate is in the block's range on its axis. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v46).slice (win2_4.rect t)).set ↔ _
  rw [View.set_slice_whole, Rect.mem_set_unit]
  exact Iff.rfl

/-- Every row is in the block of the point `row / 5000`. -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_4 _, ?_⟩
  rw [mem_blk]
  obtain ⟨-, -, -, -, -, -, -, -, -, e0, e1⟩ := idx ⟨(i 0).val / 5000, by rw [hN]; omega⟩
  intro a
  match a with
  | ⟨0, _⟩ => show win2_4.index _ (0 : Fin 2) * 5000 ≤ (i 0).val ∧ (i 0).val < win2_4.index _ (0 : Fin 2) * 5000 + 5000; rw [e0]; show (i 0).val / 5000 * 5000 ≤ _ ∧ _ < (i 0).val / 5000 * 5000 + 5000; omega
  | ⟨1, _⟩ => show win2_4.index _ (1 : Fin 2) * 128 ≤ (i 1).val ∧ (i 1).val < win2_4.index _ (1 : Fin 2) * 128 + 128; rw [e1]; omega

/-- THE ARRAY after region 2, whatever it was entered from. -/
theorem arr (c : Dev nD) :
    (dat2 V c).arrAt 4 cfg2.N = conv (V c main_v45 : Vec Ideal S50000x128 .f32) (V c main_v20 : Vec Ideal S50000x1 .f32) (V c main_arg5 : Vec Ideal S128x128 .f32) (V c main_v22 : Vec Ideal S1x128 .f32) :=
  (dat2 V c).arrAt_eq_of_cover 4 _ (fun t _ => flushed_eq V c t) cover

end Cert.KernelIdeal.Region2

end
-- ==== Proof.Region3.lean ====
/-
  Region 3 (the last layer's projection and row scaling), from blocks to the whole array: whatever the buffers hold when the region is entered, after it the
  output array is `projScale` of the input arrays. Point `t` of the ten-point grid fetches rows 5000·t … 5000·t + 4999 of
  every row-indexed input (the weight matrix and the bias row are fetched whole) and writes the same rows of the output; the body is row-local, so block `t` of
  the result is the function applied to block `t` of the inputs, and the ten blocks tile the array.
-/
import proofs.«180997_j2800318677548_1_alg».proof.Proof.Gen.KernelIdeal.Frame
import proofs.«180997_j2800318677548_1_alg».proof.Proof.PayRest
import proofs.«180997_j2800318677548_1_alg».proof.Proof.Spec
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Cert.Spec (rowBlk projScale)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index at point `t` is `(t, 0)`, a whole window's is
    `(0, 0)`, and there are ten points. -/
theorem idx : ∀ t : Fin cfg3.N, t.val < 10
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem hrows (t : Fin cfg3.N) : 5000 * (t.val + 1) ≤ 50000 := by have := (idx t).1; omega

/-- The hidden features's block at point `t` is rows 5000·t … of the array. -/
theorem blk_h (c : Dev nD) (t : Fin cfg3.N) :
    (iblk3 V c 0 t : Vec Ideal S5000x128 .f32) = rowBlk 5000 t.val (hrows t) (V c main_v46 : Vec Ideal S50000x128 .f32) := by
  obtain ⟨-, e0, e1, -, -, -, -, -, -⟩ := idx t
  funext j
  unfold iblk3
  rw [View.read_apply]
  show V c main_v46 _ = V c main_v46 _
  congr 1
  funext a
  apply Fin.ext
  match a with
  | ⟨0, _⟩ => show win3_0.index t 0 * 5000 + 1 * (j 0).val = 5000 * t.val + (j 0).val; rw [e0]; omega
  | ⟨1, _⟩ => show win3_0.index t 1 * 128 + 1 * (j 1).val = (j 1).val; rw [e1]; omega

/-- The weight matrix's window is the whole array at every point. -/
theorem blk_W (c : Dev nD) (t : Fin cfg3.N) :
    (iblk3 V c 1 t : Vec Ideal S128x40 .f32) = (V c main_arg7 : Vec Ideal S128x40 .f32) := by
  obtain ⟨-, -, -, e0, e1, -, -, -, -⟩ := idx t
  funext j
  unfold iblk3
  rw [View.read_apply]
  show V c main_arg7 _ = V c main_arg7 j
  congr 1
  funext a
  apply Fin.ext
  match a with
  | ⟨0, _⟩ => show win3_1.index t 0 * 128 + 1 * (j 0).val = (j 0).val; rw [e0]; omega
  | ⟨1, _⟩ => show win3_1.index t 1 * 40 + 1 * (j 1).val = (j 1).val; rw [e1]; omega

/-- The source factor column's block at point `t` is rows 5000·t … of the array. -/
theorem blk_s' (c : Dev nD) (t : Fin cfg3.N) :
    (iblk3 V c 2 t : Vec Ideal S5000x1 .f32) = rowBlk 5000 t.val (hrows t) (V c main_v13 : Vec Ideal S50000x1 .f32) := by
  obtain ⟨-, -, -, -, -, e0, e1, -, -⟩ := idx t
  funext j
  unfold iblk3
  rw [View.read_apply]
  show V c main_v13 _ = V c main_v13 _
  congr 1
  funext a
  apply Fin.ext
  match a with
  | ⟨0, _⟩ => show win3_2.index t 0 * 5000 + 1 * (j 0).val = 5000 * t.val + (j 0).val; rw [e0]; omega
  | ⟨1, _⟩ => show win3_2.index t 1 * 1 + 1 * (j 1).val = (j 1).val; rw [e1]; omega

/-- Reading the output window's block `t` off an array takes the same rows. -/
theorem blk_out (t : Fin cfg3.N) (G : Vec Ideal S50000x40 .f32) :
    (((cfg3.win 3).blk t).view.read (Elt Ideal) G : Vec Ideal S5000x40 .f32) = rowBlk 5000 t.val (hrows t) G := by
  obtain ⟨-, -, -, -, -, -, -, e0, e1⟩ := idx t
  funext j
  rw [View.read_apply]
  show G _ = G _
  congr 1
  funext a
  apply Fin.ext
  match a with
  | ⟨0, _⟩ => show win3_3.index t 0 * 5000 + 1 * (j 0).val = 5000 * t.val + (j 0).val; rw [e0]; omega
  | ⟨1, _⟩ => show win3_3.index t 1 * 40 + 1 * (j 1).val = (j 1).val; rw [e1]; omega

/-- What point `t` writes back is block `t` of `projScale` of the arrays as the region finds them. -/
theorem flushed_eq (c : Dev nD) (t : Fin cfg3.N) :
    (dat3 V c).flushed 3 t = ((cfg3.win 3).blk t).view.read (Elt Ideal)
      (projScale (V c main_v46 : Vec Ideal S50000x128 .f32) (V c main_arg7 : Vec Ideal S128x40 .f32) (V c main_v13 : Vec Ideal S50000x1 .f32)) := by
  rw [blk_out]
  show (cfg3.win 3).cut (grid3.coords t) ((dat3 V c).after 3 t) = _
  rw [after3_3]
  unfold out3_3
  rw [View.canon_unit_zero hz]
  simp only [View.ld_unit_zero (S := S5000x128) hz, View.ld_unit_zero (S := S128x40) hz, View.ld_unit_zero (S := S5000x1) hz]
  rw [Cert.KernelIdeal.Pay.pay3, blk_h, blk_W, blk_s', Cert.Spec.projScale_rowBlk]
  rfl

/-- An index of the array is in point `t`'s block iff each coordinate is in the block's range on its axis. -/
theorem mem_blk (t : Fin cfg3.N) (i : S50000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v47).slice (win3_3.rect t)).set ↔ _
  rw [View.set_slice_whole, Rect.mem_set_unit]
  exact Iff.rfl

/-- Every row is in the block of the point `row / 5000`. -/
theorem cover (i : S50000x40.Idx) : ∃ t : Fin cfg3.N, (cfg3.win 3).flush t = true ∧ i ∈ ((cfg3.win 3).blk t).view.set := by
  have hi0 : (i 0).val < 50000 := (i 0).isLt
  have hi1 : (i 1).val < 40 := (i 1).isLt
  have hN : cfg3.N = 10 := N_3
  refine ⟨⟨(i 0).val / 5000, by rw [hN]; omega⟩, flush3_3 _, ?_⟩
  rw [mem_blk]
  obtain ⟨-, -, -, -, -, -, -, e0, e1⟩ := idx ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e0]; show (i 0).val / 5000 * 5000 ≤ _ ∧ _ < (i 0).val / 5000 * 5000 + 5000; omega
  | ⟨1, _⟩ => show win3_3.index _ (1 : Fin 2) * 40 ≤ (i 1).val ∧ (i 1).val < win3_3.index _ (1 : Fin 2) * 40 + 40; rw [e1]; omega

/-- THE ARRAY after region 3, whatever it was entered from. -/
theorem arr (c : Dev nD) :
    (dat3 V c).arrAt 3 cfg3.N = projScale (V c main_v46 : Vec Ideal S50000x128 .f32) (V c main_arg7 : Vec Ideal S128x40 .f32) (V c main_v13 : Vec Ideal S50000x1 .f32) :=
  (dat3 V c).arrAt_eq_of_cover 3 _ (fun t _ => flushed_eq V c t) cover

end Cert.KernelIdeal.Region3

end
-- ==== Proof.Region4.lean ====
/-
  Region 4 (the last layer's row scaling and bias), from blocks to the whole array: whatever the buffers hold when the region is entered, after it the
  output array is `scaleBias` of the input arrays. Point `t` of the ten-point grid fetches rows 5000·t … 5000·t + 4999 of
  every row-indexed input (the weight matrix and the bias row are fetched whole) and writes the same rows of the output; the body is row-local, so block `t` of
  the result is the function applied to block `t` of the inputs, and the ten blocks tile the array.
-/
import proofs.«180997_j2800318677548_1_alg».proof.Proof.Gen.KernelIdeal.Frame
import proofs.«180997_j2800318677548_1_alg».proof.Proof.PayRest
import proofs.«180997_j2800318677548_1_alg».proof.Proof.Spec
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Cert.Spec (rowBlk scaleBias)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index at point `t` is `(t, 0)`, a whole window's is
    `(0, 0)`, and there are ten points. -/
theorem idx : ∀ t : Fin cfg4.N, t.val < 10
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem hrows (t : Fin cfg4.N) : 5000 * (t.val + 1) ≤ 50000 := by have := (idx t).1; omega

/-- The aggregated projections's block at point `t` is rows 5000·t … of the array. -/
theorem blk_a (c : Dev nD) (t : Fin cfg4.N) :
    (iblk4 V c 0 t : Vec Ideal S5000x40 .f32) = rowBlk 5000 t.val (hrows t) (V c main_v57 : Vec Ideal S50000x40 .f32) := by
  obtain ⟨-, e0, e1, -, -, -, -, -, -⟩ := idx t
  funext j
  unfold iblk4
  rw [View.read_apply]
  show V c main_v57 _ = V c main_v57 _
  congr 1
  funext a
  apply Fin.ext
  match a with
  | ⟨0, _⟩ => show win4_0.index t 0 * 5000 + 1 * (j 0).val = 5000 * t.val + (j 0).val; rw [e0]; omega
  | ⟨1, _⟩ => show win4_0.index t 1 * 40 + 1 * (j 1).val = (j 1).val; rw [e1]; omega

/-- The destination factor column's block at point `t` is rows 5000·t … of the array. -/
theorem blk_s (c : Dev nD) (t : Fin cfg4.N) :
    (iblk4 V c 1 t : Vec Ideal S5000x1 .f32) = rowBlk 5000 t.val (hrows t) (V c main_v20 : Vec Ideal S50000x1 .f32) := by
  obtain ⟨-, -, -, e0, e1, -, -, -, -⟩ := idx t
  funext j
  unfold iblk4
  rw [View.read_apply]
  show V c main_v20 _ = V c main_v20 _
  congr 1
  funext a
  apply Fin.ext
  match a with
  | ⟨0, _⟩ => show win4_1.index t 0 * 5000 + 1 * (j 0).val = 5000 * t.val + (j 0).val; rw [e0]; omega
  | ⟨1, _⟩ => show win4_1.index t 1 * 1 + 1 * (j 1).val = (j 1).val; rw [e1]; omega

/-- The bias row's window is the whole array at every point. -/
theorem blk_b (c : Dev nD) (t : Fin cfg4.N) :
    (iblk4 V c 2 t : Vec Ideal S1x40 .f32) = (V c main_v23 : Vec Ideal S1x40 .f32) := by
  obtain ⟨-, -, -, -, -, e0, e1, -, -⟩ := idx t
  funext j
  unfold iblk4
  rw [View.read_apply]
  show V c main_v23 _ = V c main_v23 j
  congr 1
  funext a
  apply Fin.ext
  match a with
  | ⟨0, _⟩ => show win4_2.index t 0 * 1 + 1 * (j 0).val = (j 0).val; rw [e0]; omega
  | ⟨1, _⟩ => show win4_2.index t 1 * 40 + 1 * (j 1).val = (j 1).val; rw [e1]; omega

/-- Reading the output window's block `t` off an array takes the same rows. -/
theorem blk_out (t : Fin cfg4.N) (G : Vec Ideal S50000x40 .f32) :
    (((cfg4.win 3).blk t).view.read (Elt Ideal) G : Vec Ideal S5000x40 .f32) = rowBlk 5000 t.val (hrows t) G := by
  obtain ⟨-, -, -, -, -, -, -, e0, e1⟩ := idx t
  funext j
  rw [View.read_apply]
  show G _ = G _
  congr 1
  funext a
  apply Fin.ext
  match a with
  | ⟨0, _⟩ => show win4_3.index t 0 * 5000 + 1 * (j 0).val = 5000 * t.val + (j 0).val; rw [e0]; omega
  | ⟨1, _⟩ => show win4_3.index t 1 * 40 + 1 * (j 1).val = (j 1).val; rw [e1]; omega

/-- What point `t` writes back is block `t` of `scaleBias` of the arrays as the region finds them. -/
theorem flushed_eq (c : Dev nD) (t : Fin cfg4.N) :
    (dat4 V c).flushed 3 t = ((cfg4.win 3).blk t).view.read (Elt Ideal)
      (scaleBias (V c main_v57 : Vec Ideal S50000x40 .f32) (V c main_v20 : Vec Ideal S50000x1 .f32) (V c main_v23 : Vec Ideal S1x40 .f32)) := by
  rw [blk_out]
  show (cfg4.win 3).cut (grid4.coords t) ((dat4 V c).after 3 t) = _
  rw [after4_3]
  unfold out4_3
  rw [View.canon_unit_zero hz]
  simp only [View.ld_unit_zero (S := S5000x40) hz, View.ld_unit_zero (S := S5000x1) hz, View.ld_unit_zero (S := S1x40) hz]
  rw [Cert.KernelIdeal.Pay.pay4, blk_a, blk_s, blk_b, Cert.Spec.scaleBias_rowBlk]
  rfl

/-- An index of the array is in point `t`'s block iff each coordinate is in the block's range on its axis. -/
theorem mem_blk (t : Fin cfg4.N) (i : S50000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v58).slice (win4_3.rect t)).set ↔ _
  rw [View.set_slice_whole, Rect.mem_set_unit]
  exact Iff.rfl

/-- Every row is in the block of the point `row / 5000`. -/
theorem cover (i : S50000x40.Idx) : ∃ t : Fin cfg4.N, (cfg4.win 3).flush t = true ∧ i ∈ ((cfg4.win 3).blk t).view.set := by
  have hi0 : (i 0).val < 50000 := (i 0).isLt
  have hi1 : (i 1).val < 40 := (i 1).isLt
  have hN : cfg4.N = 10 := N_4
  refine ⟨⟨(i 0).val / 5000, by rw [hN]; omega⟩, flush4_3 _, ?_⟩
  rw [mem_blk]
  obtain ⟨-, -, -, -, -, -, -, e0, e1⟩ := idx ⟨(i 0).val / 5000, by rw [hN]; omega⟩
  intro a
  match a with
  | ⟨0, _⟩ => show win4_3.index _ (0 : Fin 2) * 5000 ≤ (i 0).val ∧ (i 0).val < win4_3.index _ (0 : Fin 2) * 5000 + 5000; rw [e0]; show (i 0).val / 5000 * 5000 ≤ _ ∧ _ < (i 0).val / 5000 * 5000 + 5000; omega
  | ⟨1, _⟩ => show win4_3.index _ (1 : Fin 2) * 40 ≤ (i 1).val ∧ (i 1).val < win4_3.index _ (1 : Fin 2) * 40 + 40; rw [e1]; omega

/-- THE ARRAY after region 4, whatever it was entered from. -/
theorem arr (c : Dev nD) :
    (dat4 V c).arrAt 3 cfg4.N = scaleBias (V c main_v57 : Vec Ideal S50000x40 .f32) (V c main_v20 : Vec Ideal S50000x1 .f32) (V c main_v23 : Vec Ideal S1x40 .f32) :=
  (dat4 V c).arrAt_eq_of_cover 3 _ (fun t _ => flushed_eq V c t) cover

end Cert.KernelIdeal.Region4

end
-- ==== Proof.KFold.lean ====
/-
  The kernel's result, read through the boundaries of its program: each region's output array is its dense piece of the
  arrays it was entered from (Region0 … Region4), each host stretch between regions applies a layer's sparse half to the
  region's output, and the buffers that do not change are read where they were written (KFoldStatic).
-/
import proofs.«180997_j2800318677548_1_alg».proof.Proof.Gen.KernelIdeal.Frame
import proofs.«180997_j2800318677548_1_alg».proof.Proof.KForm
import proofs.«180997_j2800318677548_1_alg».proof.Proof.Spec
import proofs.«180997_j2800318677548_1_alg».proof.Proof.KFoldStatic
import proofs.«180997_j2800318677548_1_alg».proof.Proof.Region0
import proofs.«180997_j2800318677548_1_alg».proof.Proof.Region1
import proofs.«180997_j2800318677548_1_alg».proof.Proof.Region2
import proofs.«180997_j2800318677548_1_alg».proof.Proof.Region3
import proofs.«180997_j2800318677548_1_alg».proof.Proof.Region4
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fold

open Cert.KernelIdeal Cert.KernelIdeal.Gen Cert.KernelIdeal.Form Idealize.ShloMosaic Idealize.ShloMosaic.TcCoe Idealize.SL.Sem
open Idealize.ShloMosaic.Pipeline (Dat)
open Cert.Spec (colOf rowOf)

variable (m : (ℓ : Loc nD τ sig) → Buf (Elt Ideal) ℓ) (ρ : Dev nD → PrngReg) (c : Dev nD)

/-! ## The sparse halves, read off the host stretches between the regions -/

theorem W7_main_v34 : (W7 m ρ c (Proc.devRef .tc main_v34) : Vec Ideal S50000x128 .f32) = agg128 (F := Ideal) (W6 m ρ c (Proc.devRef .tc main_v24)) (m ((c : Thread nD τ).loc main_arg1)) (m ((c : Thread nD τ).loc main_arg2)) := by
  show StableHlo.after hostOps1 (W6 m ρ c) (Proc.devRef .tc main_v34) = _
  after_results_simp
  rw [W6_main_arg1 m ρ c, W6_main_arg2 m ρ c]
  unfold agg128 wrap
  rfl

theorem W9_main_v45 : (W9 m ρ c (Proc.devRef .tc main_v45) : Vec Ideal S50000x128 .f32) = agg128 (F := Ideal) (W8 m ρ c (Proc.devRef .tc main_v35)) (m ((c : Thread nD τ).loc main_arg1)) (m ((c : Thread nD τ).loc main_arg2)) := by
  show StableHlo.after hostOps2 (W8 m ρ c) (Proc.devRef .tc main_v45) = _
  after_results_simp
  rw [W8_main_arg1 m ρ c, W8_main_arg2 m ρ c]
  unfold agg128 wrap
  rfl

theorem W12_main_v57 : (W12 m ρ c (Proc.devRef .tc main_v57) : Vec Ideal S50000x40 .f32) = agg40 (F := Ideal) (W11 m ρ c (Proc.devRef .tc main_v47)) (m ((c : Thread nD τ).loc main_arg1)) (m ((c : Thread nD τ).loc main_arg2)) := by
  show StableHlo.after hostOps4 (W11 m ρ c) (Proc.devRef .tc main_v57) = _
  after_results_simp
  rw [W11_main_arg1 m ρ c, W11_main_arg2 m ρ c]
  unfold agg40 wrap
  rfl

/-! ## Each region's output, in terms of the boundary it was entered from -/

/-- Region 0 leaves the features with every row scaled by its source factor. -/
private theorem W6_main_v24 :
    (W6 m ρ c (Proc.devRef .tc main_v24) : Vec Ideal S50000x128 .f32)
      = Cert.Spec.scaleRows (m ((c : Thread nD τ).loc main_arg0)) (colOf (inv (F := Ideal) (m ((c : Thread nD τ).loc main_arg1)))) := by
  refine (W6_arr m ρ c 2).trans ((Cert.KernelIdeal.Region0.arr (V5 m ρ) c).trans ?_)
  show Cert.Spec.scaleRows (W5 m ρ c (Proc.devRef .tc main_arg0) : Vec Ideal S50000x128 .f32)
      (W5 m ρ c (Proc.devRef .tc main_v13) : Vec Ideal S50000x1 .f32) = _
  rw [W5_main_arg0 m ρ c, W5_main_v13 m ρ c]

/-- Region 1 leaves the first layer's dense half of what it was entered with, scaled for the next aggregation. -/
private theorem W8_main_v35 :
    (W8 m ρ c (Proc.devRef .tc main_v35) : Vec Ideal S50000x128 .f32)
      = Cert.Spec.convScale
          (agg128 (F := Ideal) (W6 m ρ c (Proc.devRef .tc main_v24)) (m ((c : Thread nD τ).loc main_arg1)) (m ((c : Thread nD τ).loc main_arg2)))
          (colOf (inv (F := Ideal) (m ((c : Thread nD τ).loc main_arg2)))) (m ((c : Thread nD τ).loc main_arg3))
          (rowOf (m ((c : Thread nD τ).loc main_arg4))) (colOf (inv (F := Ideal) (m ((c : Thread nD τ).loc main_arg1)))) := by
  refine (W8_arr m ρ c 5).trans ((Cert.KernelIdeal.Region1.arr (V7 m ρ) c).trans ?_)
  show Cert.Spec.convScale (W7 m ρ c (Proc.devRef .tc main_v34) : Vec Ideal S50000x128 .f32)
      (W7 m ρ c (Proc.devRef .tc main_v20) : Vec Ideal S50000x1 .f32) (W7 m ρ c (Proc.devRef .tc main_arg3) : Vec Ideal S128x128 .f32)
      (W7 m ρ c (Proc.devRef .tc main_v21) : Vec Ideal S1x128 .f32) (W7 m ρ c (Proc.devRef .tc main_v13) : Vec Ideal S50000x1 .f32) = _
  rw [W7_main_v34 m ρ c, W7_main_v20 m ρ c, W7_main_arg3 m ρ c, W7_main_v21 m ρ c, W7_main_v13 m ρ c]

/-- Region 2 leaves the second layer's dense half of what it was entered with. -/
private theorem W10_main_v46 :
    (W10 m ρ c (Proc.devRef .tc main_v46) : Vec Ideal S50000x128 .f32)
      = Cert.Spec.conv
          (agg128 (F := Ideal) (W8 m ρ c (Proc.devRef .tc main_v35)) (m ((c : Thread nD τ).loc main_arg1)) (m ((c : Thread nD τ).loc main_arg2)))
          (colOf (inv (F := Ideal) (m ((c : Thread nD τ).loc main_arg2)))) (m ((c : Thread nD τ).loc main_arg5))
          (rowOf (m ((c : Thread nD τ).loc main_arg6))) := by
  refine (W10_arr m ρ c 4).trans ((Cert.KernelIdeal.Region2.arr (V9 m ρ) c).trans ?_)
  show Cert.Spec.conv (W9 m ρ c (Proc.devRef .tc main_v45) : Vec Ideal S50000x128 .f32)
      (W9 m ρ c (Proc.devRef .tc main_v20) : Vec Ideal S50000x1 .f32) (W9 m ρ c (Proc.devRef .tc main_arg5) : Vec Ideal S128x128 .f32)
      (W9 m ρ c (Proc.devRef .tc main_v22) : Vec Ideal S1x128 .f32) = _
  rw [W9_main_v45 m ρ c, W9_main_v20 m ρ c, W9_main_arg5 m ρ c, W9_main_v22 m ρ c]

/-- Region 3 projects region 2's output to the last layer's width and scales it for the last aggregation. -/
private theorem W11_main_v47 :
    (W11 m ρ c (Proc.devRef .tc main_v47) : Vec Ideal S50000x40 .f32)
      = Cert.Spec.projScale (W10 m ρ c (Proc.devRef .tc main_v46) : Vec Ideal S50000x128 .f32) (m ((c : Thread nD τ).loc main_arg7))
          (colOf (inv (F := Ideal) (m ((c : Thread nD τ).loc main_arg1)))) := by
  refine (W11_arr m ρ c 3).trans ((Cert.KernelIdeal.Region3.arr (V10 m ρ) c).trans ?_)
  show Cert.Spec.projScale (W10 m ρ c (Proc.devRef .tc main_v46) : Vec Ideal S50000x128 .f32)
      (W10 m ρ c (Proc.devRef .tc main_arg7) : Vec Ideal S128x40 .f32) (W10 m ρ c (Proc.devRef .tc main_v13) : Vec Ideal S50000x1 .f32) = _
  rw [W10_main_arg7 m ρ c, W10_main_v13 m ρ c]

/-- Region 4 scales the last aggregation by the destination factor and adds the bias. -/
private theorem W13_main_v58 :
    (W13 m ρ c (Proc.devRef .tc main_v58) : Vec Ideal S50000x40 .f32)
      = Cert.Spec.scaleBias
          (agg40 (F := Ideal) (W11 m ρ c (Proc.devRef .tc main_v47)) (m ((c : Thread nD τ).loc main_arg1)) (m ((c : Thread nD τ).loc main_arg2)))
          (colOf (inv (F := Ideal) (m ((c : Thread nD τ).loc main_arg2)))) (rowOf (m ((c : Thread nD τ).loc main_arg8))) := by
  refine (W13_arr m ρ c 3).trans ((Cert.KernelIdeal.Region4.arr (V12 m ρ) c).trans ?_)
  show Cert.Spec.scaleBias (W12 m ρ c (Proc.devRef .tc main_v57) : Vec Ideal S50000x40 .f32)
      (W12 m ρ c (Proc.devRef .tc main_v20) : Vec Ideal S50000x1 .f32) (W12 m ρ c (Proc.devRef .tc main_v23) : Vec Ideal S1x40 .f32) = _
  rw [W12_main_v57 m ρ c, W12_main_v20 m ρ c, W12_main_v23 m ρ c]

/-- THE KERNEL'S RESULT: the last boundary's contents at the result buffer are the network of Spec.lean over the host pieces. -/
theorem result_eq :
    (W13 m ρ c (Proc.devRef .tc main_v58) : Vec Ideal S50000x40 .f32)
      = Cert.Spec.gcn (inv (F := Ideal)) (agg128 (F := Ideal)) (agg40 (F := Ideal))
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Cert.Spec.gcn
  rw [W13_main_v58 m ρ c, W11_main_v47 m ρ c, W10_main_v46 m ρ c, W8_main_v35 m ρ c, W6_main_v24 m ρ c]

end Cert.KernelIdeal.Fold

end
-- ==== Proof.RefDense.lean ====
import proofs.«180997_j2800318677548_1_alg».proof.Proof.Gen.ReferenceIdeal
import proofs.«180997_j2800318677548_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Dense

open Cert.ReferenceIdeal Cert.ReferenceIdeal.Gen Idealize.ShloMosaic Idealize.ShloMosaic.ValueIdx

/-- A per-node factor spread over 128 columns, as the reference spells it: [N] → [N,1] → [N,128]. -/
abbrev spread128 (s : FVec Ideal S50000 .f32) : FVec Ideal S50000x128 .f32 :=
  broadcastInDim S50000x128 ![0, 1] bcast_S50000x1_S50000x128_0_1 (broadcastInDim S50000x1 ![0] bcast_S50000_S50000x1_0 s)
/-- The same over 40 columns. -/
abbrev spread40 (s : FVec Ideal S50000 .f32) : FVec Ideal S50000x40 .f32 :=
  broadcastInDim S50000x40 ![0, 1] bcast_S50000x1_S50000x40_0_1 (broadcastInDim S50000x1 ![0] bcast_S50000_S50000x1_0 s)
/-- A bias spread over the rows: [128] → [1,128] → [N,128]. -/
abbrev bias128 (b : FVec Ideal S128 .f32) : FVec Ideal S50000x128 .f32 :=
  broadcastInDim S50000x128 ![0, 1] bcast_S1x128_S50000x128_0_1 (broadcastInDim S1x128 ![1] bcast_S128_S1x128_1 b)
/-- [40] → [1,40] → [N,40]. -/
abbrev bias40 (b : FVec Ideal S40 .f32) : FVec Ideal S50000x40 .f32 :=
  broadcastInDim S50000x40 ![0, 1] bcast_S1x40_S50000x40_0_1 (broadcastInDim S1x40 ![1] bcast_S40_S1x40_1 b)
/-- The zero array the reference's relu compares with. -/
abbrev zeros128 : FVec Ideal S50000x128 .f32 :=
  broadcastInDim S50000x128 ![] bcast_S_S50000x128 (constant (F := Ideal) S_ .f32 0x00000000#32)

/-! ## The composed broadcasts read at coordinates

A vector spread to a one-column array and then along the columns reads, at row `p` and any column, the vector's entry
`p`; a vector spread to a one-row array and then along the rows reads, at any row and column `q`, the vector's entry `q`. -/

/-- [N] → [N,1] at `(p, 0)` is the vector at `p`. -/
private theorem col_apply (s : FVec Ideal S50000 .f32) (p : Fin 50000) (q : Fin 1) :
    (broadcastInDim S50000x1 ![0] bcast_S50000_S50000x1_0 s : FVec Ideal S50000x1 .f32) (ix2 p q) = s (ix1 p) :=
  broadcastInDim_apply _ bcast_S50000_S50000x1_0 s (ix2 p q) (ix1 p) (fun a => match a with
    | ⟨0, _⟩ => by show p.val = if (50000 : Nat) = 1 then 0 else p.val; rw [if_neg (by decide)])

/-- [N] → [N,1] → [N,128] at `(p, q)` is the vector at `p`. -/
private theorem spread128_apply (s : FVec Ideal S50000 .f32) (p : Fin 50000) (q : Fin 128) :
    spread128 s (ix2 p q) = s (ix1 p) :=
  (broadcastInDim_apply _ bcast_S50000x1_S50000x128_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans (col_apply s p 0)

/-- [N] → [N,1] → [N,40] at `(p, q)` is the vector at `p`. -/
private theorem spread40_apply (s : FVec Ideal S50000 .f32) (p : Fin 50000) (q : Fin 40) :
    spread40 s (ix2 p q) = s (ix1 p) :=
  (broadcastInDim_apply _ bcast_S50000x1_S50000x40_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans (col_apply s p 0)

/-- [40] → [1,40] at `(0, q)` is the vector at `q`. -/
private theorem row40_apply (b : FVec Ideal S40 .f32) (p : Fin 1) (q : Fin 40) :
    (broadcastInDim S1x40 ![1] bcast_S40_S1x40_1 b : FVec Ideal S1x40 .f32) (ix2 p q) = b (ix1 q) :=
  broadcastInDim_apply _ bcast_S40_S1x40_1 b (ix2 p q) (ix1 q) (fun a => match a with
    | ⟨0, _⟩ => by show q.val = if (40 : Nat) = 1 then 0 else q.val; rw [if_neg (by decide)])

/-- [40] → [1,40] → [N,40] at `(p, q)` is the vector at `q`. -/
private theorem bias40_apply (b : FVec Ideal S40 .f32) (p : Fin 50000) (q : Fin 40) :
    bias40 b (ix2 p q) = b (ix1 q) :=
  (broadcastInDim_apply _ bcast_S1x40_S50000x40_0_1 _ (ix2 p q) (ix2 (0 : Fin 1) q) (fun a => match a with
    | ⟨0, _⟩ => by show 0 = if (1 : Nat) = 1 then 0 else p.val; rw [if_pos rfl]
    | ⟨1, _⟩ => by show q.val = if (40 : Nat) = 1 then 0 else q.val; rw [if_neg (by decide)])).trans (row40_apply b 0 q)

/-! ## The projection read at coordinates

The contraction runs over the left operand's columns and the right operand's rows: at output `(p, q)` and contraction
position `k` the operands are read at `(p, k)` and `(k, q)`. -/

private theorem lhs_proj_0 (i : S50000x40.Idx) (q : dot_S50000x128_S128x40_S50000x40_1_0_0_1_n_n.contr.Idx) :
    (dot_S50000x128_S128x40_S50000x40_1_0_0_1_n_n.lhsIdx i q 0).val = (i 0).val := by
  unfold DotDims.lhsIdx
  rw [dif_neg (show ¬(0 : Fin S50000x128.rank) ∈ dot_S50000x128_S128x40_S50000x40_1_0_0_1_n_n.lhsBatch by decide), dif_pos (show (0 : Fin S50000x128.rank) ∈ dot_S50000x128_S128x40_S50000x40_1_0_0_1_n_n.lhsNonContracting by decide)]
  rfl
private theorem lhs_proj_1 (i : S50000x40.Idx) (q : dot_S50000x128_S128x40_S50000x40_1_0_0_1_n_n.contr.Idx) :
    (dot_S50000x128_S128x40_S50000x40_1_0_0_1_n_n.lhsIdx i q 1).val = (q ⟨0, by decide⟩).val :=
  dot_S50000x128_S128x40_S50000x40_1_0_0_1_n_n.lhsIdx_val_of_single rfl i q
private theorem rhs_proj_0 (i : S50000x40.Idx) (q : dot_S50000x128_S128x40_S50000x40_1_0_0_1_n_n.contr.Idx) :
    (dot_S50000x128_S128x40_S50000x40_1_0_0_1_n_n.rhsIdx i q 0).val = (q ⟨0, by decide⟩).val :=
  dot_S50000x128_S128x40_S50000x40_1_0_0_1_n_n.rhsIdx_val_of_single rfl i q
private theorem rhs_proj_1 (i : S50000x40.Idx) (q : dot_S50000x128_S128x40_S50000x40_1_0_0_1_n_n.contr.Idx) :
    (dot_S50000x128_S128x40_S50000x40_1_0_0_1_n_n.rhsIdx i q 1).val = (i 1).val := by
  unfold DotDims.rhsIdx
  rw [dif_neg (show ¬(1 : Fin S128x40.rank) ∈ dot_S50000x128_S128x40_S50000x40_1_0_0_1_n_n.rhsBatch by decide), dif_pos (show (1 : Fin S128x40.rank) ∈ dot_S50000x128_S128x40_S50000x40_1_0_0_1_n_n.rhsNonContracting by decide)]
  rfl

/-- The projection's entry `(p, q)` is the sum over `k` of `h[p,k] · W[k,q]`. -/
private theorem proj_apply (h : FVec Ideal S50000x128 .f32) (W : FVec Ideal S128x40 .f32) (p : Fin 50000) (q : Fin 40) :
    (Host.dotGeneral (F := Ideal) dot_S50000x128_S128x40_S50000x40_1_0_0_1_n_n none h W : FVec Ideal S50000x40 .f32) (ix2 p q)
      = ∑ k : Fin 128, h (ix2 p k) * W (ix2 k q) := by
  simp only [Host.dotGeneral]
  rw [Ideal.dotGeneral_apply, ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 p q) ((contrEquiv1 dot_S50000x128_S128x40_S50000x40_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S50000x128_S128x40_S50000x40_1_0_0_1_n_n.rhsIdx (ix2 p q) ((contrEquiv1 dot_S50000x128_S128x40_S50000x40_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-! ## The reference's dense terms are the specification's pieces -/

theorem d0 (x : FVec Ideal S50000x128 .f32) (s : FVec Ideal S50000 .f32) :
    (mulf x (spread128 s) : FVec Ideal S50000x128 .f32) = Cert.Spec.scaleRows x (Cert.Spec.colOf s) := by
  funext i
  obtain ⟨p, q, rfl⟩ : ∃ (p : Fin 50000) (q : Fin 128), i = ix2 p q := ⟨i 0, i 1, eq_ix2 i⟩
  rw [Cert.Spec.scaleRows_apply, Cert.Spec.colOf_apply, mulf_apply, spread128_apply]

theorem d3 (h : FVec Ideal S50000x128 .f32) (W : FVec Ideal S128x40 .f32) (so : FVec Ideal S50000 .f32) :
    (mulf (Host.dotGeneral (F := Ideal) dot_S50000x128_S128x40_S50000x40_1_0_0_1_n_n none h W) (spread40 so) : FVec Ideal S50000x40 .f32)
      = Cert.Spec.projScale h W (Cert.Spec.colOf so) := by
  funext i
  obtain ⟨p, q, rfl⟩ : ∃ (p : Fin 50000) (q : Fin 40), i = ix2 p q := ⟨i 0, i 1, eq_ix2 i⟩
  rw [Cert.Spec.projScale_apply, Cert.Spec.colOf_apply, mulf_apply, spread40_apply, proj_apply]

theorem d4 (a : FVec Ideal S50000x40 .f32) (si : FVec Ideal S50000 .f32) (b : FVec Ideal S40 .f32) :
    (addf (mulf a (spread40 si)) (bias40 b) : FVec Ideal S50000x40 .f32) = Cert.Spec.scaleBias a (Cert.Spec.colOf si) (Cert.Spec.rowOf b) := by
  funext i
  obtain ⟨p, q, rfl⟩ : ∃ (p : Fin 50000) (q : Fin 40), i = ix2 p q := ⟨i 0, i 1, eq_ix2 i⟩
  rw [Cert.Spec.scaleBias_apply, Cert.Spec.colOf_apply, Cert.Spec.rowOf_apply, addf_apply, mulf_apply, spread40_apply, bias40_apply]

end Cert.ReferenceIdeal.Dense

end
-- ==== Proof.RefDenseConv.lean ====
import proofs.«180997_j2800318677548_1_alg».proof.Proof.RefDense

noncomputable section

open scoped BigOperators

namespace Cert.ReferenceIdeal.Dense

open Cert.ReferenceIdeal Cert.ReferenceIdeal.Gen Idealize.ShloMosaic Idealize.ShloMosaic.ValueIdx

/-! ## The composed broadcasts read at row `p`, column `q` -/

/-- A per-node factor spread over the 128 columns: at `(p, q)` it is the factor of node `p`. The outer broadcast reads the
    one-column array at `(p, 0)` (the column axis of the operand has extent one), the inner one reads the vector at `p`. -/
private theorem spread128_ix2 (s : FVec Ideal S50000 .f32) (p : Fin 50000) (q : Fin 128) :
    spread128 s (ix2 p q) = s (ix1 p) := by
  show broadcastInDim S50000x128 ![0, 1] bcast_S50000x1_S50000x128_0_1
      (broadcastInDim S50000x1 ![0] bcast_S50000_S50000x1_0 s) (ix2 p q) = s (ix1 p)
  rw [broadcastInDim_apply _ bcast_S50000x1_S50000x128_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])]
  exact broadcastInDim_apply _ bcast_S50000_S50000x1_0 s (ix2 p (0 : Fin 1)) (ix1 p) (fun a => match a with
    | ⟨0, _⟩ => by show p.val = if (50000 : Nat) = 1 then 0 else p.val; rw [if_neg (by decide)])

/-- A bias spread over the rows: at `(p, q)` it is the bias of column `q`. The outer broadcast reads the one-row array at
    `(0, q)` (the row axis of the operand has extent one), the inner one reads the vector at `q`. -/
private theorem bias128_ix2 (b : FVec Ideal S128 .f32) (p : Fin 50000) (q : Fin 128) :
    bias128 b (ix2 p q) = b (ix1 q) := by
  show broadcastInDim S50000x128 ![0, 1] bcast_S1x128_S50000x128_0_1
      (broadcastInDim S1x128 ![1] bcast_S128_S1x128_1 b) (ix2 p q) = b (ix1 q)
  rw [broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The array the clamp compares with is zero everywhere: a scalar constant with the bits of `+0`, spread over every axis. -/
private theorem zeros128_apply (i : S50000x128.Idx) : zeros128 i = 0 := by
  show broadcastInDim S50000x128 ![] bcast_S_S50000x128 (constant (F := Ideal) S_ .f32 0x00000000#32) i = 0
  rw [broadcastInDim_apply _ bcast_S_S50000x128 _ i ix0 (fun a => a.elim0), constant_apply]
  exact Ideal.ofBits_zero_f32

/-! ## The projection read at row `p`, column `q`

The dimension numbers contract axis 1 of the left operand with axis 0 of the right one and have no batch axis, so at
output index `(p, q)` and contraction index `k` the operands are read at `(p, k)` and `(k, q)`. -/

private theorem lhs_0 (i : S50000x128.Idx) (k : dot_S50000x128_S128x128_S50000x128_1_0_0_1_n_n.contr.Idx) :
    (dot_S50000x128_S128x128_S50000x128_1_0_0_1_n_n.lhsIdx i k 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

private theorem lhs_1 (i : S50000x128.Idx) (k : dot_S50000x128_S128x128_S50000x128_1_0_0_1_n_n.contr.Idx) :
    (dot_S50000x128_S128x128_S50000x128_1_0_0_1_n_n.lhsIdx i k 1).val = (k ⟨0, by decide⟩).val :=
  dot_S50000x128_S128x128_S50000x128_1_0_0_1_n_n.lhsIdx_val_of_single rfl i k

private theorem rhs_0 (i : S50000x128.Idx) (k : dot_S50000x128_S128x128_S50000x128_1_0_0_1_n_n.contr.Idx) :
    (dot_S50000x128_S128x128_S50000x128_1_0_0_1_n_n.rhsIdx i k 0).val = (k ⟨0, by decide⟩).val :=
  dot_S50000x128_S128x128_S50000x128_1_0_0_1_n_n.rhsIdx_val_of_single rfl i k

private theorem rhs_1 (i : S50000x128.Idx) (k : dot_S50000x128_S128x128_S50000x128_1_0_0_1_n_n.contr.Idx) :
    (dot_S50000x128_S128x128_S50000x128_1_0_0_1_n_n.rhsIdx i k 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The projection at `(p, q)` is the sum over the 128 contracted positions `k` of `y[p,k] · W[k,q]`: the ideal
    `dot_general` is the sum over its contraction index, and a one-axis contraction index is its one coordinate. -/
private theorem proj_ix2 (y : FVec Ideal S50000x128 .f32) (W : FVec Ideal S128x128 .f32) (p : Fin 50000) (q : Fin 128) :
    Host.dotGeneral (F := Ideal) dot_S50000x128_S128x128_S50000x128_1_0_0_1_n_n none y W (ix2 p q) = ∑ k : Fin 128, y (ix2 p k) * W (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S50000x128_S128x128_S50000x128_1_0_0_1_n_n.rhsIdx (ix2 p q) ((contrEquiv1 dot_S50000x128_S128x128_S50000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- The clamped, biased projection of the row-scaled features at `(p, q)`: the common part of both layers' dense halves. -/
private theorem convCore_ix2 (a : FVec Ideal S50000x128 .f32) (si : FVec Ideal S50000 .f32) (W : FVec Ideal S128x128 .f32)
    (b : FVec Ideal S128 .f32) (p : Fin 50000) (q : Fin 128) :
    (maximumf (addf (Host.dotGeneral (F := Ideal) dot_S50000x128_S128x128_S50000x128_1_0_0_1_n_n none (mulf a (spread128 si)) W) (bias128 b)) zeros128 : FVec Ideal S50000x128 .f32) (ix2 p q)
      = max ((∑ k : Fin 128, (a (ix2 p k) * si (ix1 p)) * W (ix2 k q)) + b (ix1 q)) 0 := by
  rw [maximumf_apply, addf_apply, proj_ix2, bias128_ix2, zeros128_apply]
  simp only [mulf_apply, spread128_ix2]

theorem d1 (a : FVec Ideal S50000x128 .f32) (si : FVec Ideal S50000 .f32) (W : FVec Ideal S128x128 .f32)
    (b : FVec Ideal S128 .f32) (so : FVec Ideal S50000 .f32) :
    (mulf (maximumf (addf (Host.dotGeneral (F := Ideal) dot_S50000x128_S128x128_S50000x128_1_0_0_1_n_n none (mulf a (spread128 si)) W) (bias128 b)) zeros128) (spread128 so) : FVec Ideal S50000x128 .f32)
      = Cert.Spec.convScale a (Cert.Spec.colOf si) W (Cert.Spec.rowOf b) (Cert.Spec.colOf so) := by
  funext i
  obtain ⟨p, q, rfl⟩ : ∃ (p : Fin 50000) (q : Fin 128), i = ix2 p q := ⟨i 0, i 1, eq_ix2 i⟩
  rw [Cert.Spec.convScale_apply, mulf_apply, convCore_ix2, spread128_ix2]
  simp only [Cert.Spec.colOf_apply, Cert.Spec.rowOf_apply]

theorem d2 (a : FVec Ideal S50000x128 .f32) (si : FVec Ideal S50000 .f32) (W : FVec Ideal S128x128 .f32)
    (b : FVec Ideal S128 .f32) :
    (maximumf (addf (Host.dotGeneral (F := Ideal) dot_S50000x128_S128x128_S50000x128_1_0_0_1_n_n none (mulf a (spread128 si)) W) (bias128 b)) zeros128 : FVec Ideal S50000x128 .f32)
      = Cert.Spec.conv a (Cert.Spec.colOf si) W (Cert.Spec.rowOf b) := by
  funext i
  obtain ⟨p, q, rfl⟩ : ∃ (p : Fin 50000) (q : Fin 128), i = ix2 p q := ⟨i 0, i 1, eq_ix2 i⟩
  rw [Cert.Spec.conv_apply, convCore_ix2]
  simp only [Cert.Spec.colOf_apply, Cert.Spec.rowOf_apply]

end Cert.ReferenceIdeal.Dense

end
-- ==== Proof.RefValue.lean ====
/-
  The reference's result, read as the three-layer network of Spec.lean. Its composed term applies, layer by layer, the
  host's sparse half (gather along the sources, sum into the destinations) and a dense half spelled with whole-array
  operations; the dense halves are the index-by-index pieces of Spec.lean (RefDense.lean, RefDenseConv.lean), and the sparse
  halves and the degree normalisation are carried as named functions, never opened.
-/
import proofs.«180997_j2800318677548_1_alg».proof.Proof.RefRun
import proofs.«180997_j2800318677548_1_alg».proof.Proof.RefDense
import proofs.«180997_j2800318677548_1_alg».proof.Proof.RefDenseConv
import proofs.«180997_j2800318677548_1_alg».proof.Proof.Spec

noncomputable section

namespace Cert.ReferenceIdeal.RefValue

open Cert.ReferenceIdeal Cert.ReferenceIdeal.Gen Cert.ReferenceIdeal.Dense Idealize.ShloMosaic Idealize.ShloMosaic.TcCoe Idealize.SL.Sem

variable {F : FTy → Type} [FloatOps F]

/-- How many edges name each node: a one for every edge, summed into the node the index array names. -/
def deg (idx : Vec F S800000 .i32) : Vec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 idx)
    (broadcastInDim S800000 ![] bcast_S_S800000 (constant S_ .f32 0x3F800000#32))

/-- The degree normalisation: `1/sqrt(max(deg, 1))` where the degree is positive, `0` elsewhere. -/
def inv (idx : Vec F S800000 .i32) : Vec F S50000 .f32 :=
  select (cmpf (F := F) .ogt (deg idx) (broadcastInDim S50000 ![] bcast_S_S50000 (constant S_ .f32 0x00000000#32)))
    (Host.rsqrt (maximumf (deg idx) (broadcastInDim S50000 ![] bcast_S_S50000 (constant S_ .f32 0x3F800000#32))))
    (broadcastInDim S50000 ![] bcast_S_S50000 (id (constant S_ .f32 0x00000000#32)))

/-- The source indices as the gather takes them: a negative index counted from the end, then one index per row. -/
def wrap (src : Vec F S800000 .i32) : Vec F S800000x1 .i32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- A layer's sparse half at 128 features: the rows gathered along the edges' sources, summed into the edges' destinations. -/
def agg128 (h : Vec F S50000x128 .f32) (src dst : Vec F S800000 .i32) : Vec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (wrap src))

/-- The same at 40 features. -/
def agg40 (h : Vec F S50000x40 .f32) (src dst : Vec F S800000 .i32) : Vec F S50000x40 .f32 :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 dst)
    (Host.gather gather_S50000x40_S800000x1_S800000x40_1_0_n_n_0_1_140 h (wrap src))

/-- The reference's composed result term is the network of Spec.lean over these host pieces. -/
theorem res_eq (m : (ℓ : Loc nD τ sig) → Buf (Elt Ideal) ℓ) (c : Dev nD) :
    Cert.ReferenceIdeal.Value.res_main_v80 (F := Ideal) m c
      = Cert.Spec.gcn (inv (F := Ideal)) (agg128 (F := Ideal)) (agg40 (F := Ideal))
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.Spec.gcn
  rw [← d4, ← d3, ← d2, ← d1, ← d0]
  rfl

end Cert.ReferenceIdeal.RefValue

end
-- ==== Proof.lean ====
/-
  The proof of `Cert.Claim`: a three-layer graph convolution whose dense, node-indexed halves run as five row-blocked
  kernels (row scaling; scaling, projection, bias, clamp and the next layer's scaling; the same without the last scaling;
  projection and scaling; scaling and bias) between the host's gathers and scatter-adds, against the plain reference that
  spells the same layers with whole-array host operations.

  At the ideal instance both programs compute, index by index, the network `Cert.Spec.gcn` of Proof/Spec.lean: each
  kernel region leaves in its output array the row-local piece of Spec.lean applied to the arrays it was entered from
  (Proof/Region0 … Region4 over the payloads of Proof/PayConv, Proof/PayRest), the host stretches between the regions apply
  the sparse half of a layer, and the kernel's result is read through the boundaries of its program (Proof/KFoldStatic,
  Proof/KFold); the reference's dense halves are the same pieces (Proof/RefDense, Proof/RefDenseConv) and its composed result
  term is the same network (Proof/RefValue). No law of the extended reals beyond reading both sides at an index is needed:
  the two programs multiply, add and clamp in the same order. The sparse halves and the degree normalisation are the same host
  operations in both programs and are carried as named functions, never opened.

  The frames of the two kernel programs are the generated ones; the reference's frame is its run with the result dropped;
  the idealization rewrote no operation, so `preserves` is trivial.
-/
import proofs.«180997_j2800318677548_1_alg».proof.Defs
import proofs.«180997_j2800318677548_1_alg».proof.Proof.Gen.Kernel
import proofs.«180997_j2800318677548_1_alg».proof.Proof.Gen.Kernel.Frame
import proofs.«180997_j2800318677548_1_alg».proof.Proof.Gen.KernelIdeal
import proofs.«180997_j2800318677548_1_alg».proof.Proof.Gen.KernelIdeal.Frame
import proofs.«180997_j2800318677548_1_alg».proof.Proof.Gen.ReferenceIdeal
import proofs.«180997_j2800318677548_1_alg».proof.Proof.Gen.Pre_finite_inputs
import proofs.«180997_j2800318677548_1_alg».proof.Proof.KernelRun
import proofs.«180997_j2800318677548_1_alg».proof.Proof.KFold
import proofs.«180997_j2800318677548_1_alg».proof.Proof.RefRun
import proofs.«180997_j2800318677548_1_alg».proof.Proof.RefValue
import Idealize.ShloMosaic.Adequacy
import Idealize.ShloMosaic.Init

noncomputable section

namespace Cert.Proof

open Idealize.ShloMosaic Idealize.ShloMosaic.TcCoe Idealize.SL.Sem

/-! ## The host pieces are the same functions in both programs -/

theorem host_inv : Cert.KernelIdeal.Form.inv (F := Ideal) = Cert.ReferenceIdeal.RefValue.inv (F := Ideal) := rfl
theorem host_agg128 : Cert.KernelIdeal.Form.agg128 (F := Ideal) = Cert.ReferenceIdeal.RefValue.agg128 (F := Ideal) := rfl
theorem host_agg40 : Cert.KernelIdeal.Form.agg40 (F := Ideal) = Cert.ReferenceIdeal.RefValue.agg40 (F := Ideal) := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of Spec.lean of those arguments in their
    result arrays: the kernel's by its run read through the boundaries, the reference's by its composed term. -/
theorem algebraic : Cert.algebraic_KernelIdeal_ReferenceIdeal := by
  intro m ρ m' ρ' _ hagree
  refine ⟨fun c => Cert.KernelIdeal.Gen.W13 (F := Ideal) m ρ c (Proc.devRef .tc Cert.KernelIdeal.main_v58),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.RefValue.res_eq, h0, h1, h2, h3, h4, h5, h6, h7, h8]
  exact ((Cert.KernelIdeal.Fold.result_eq m ρ c).trans (by rw [host_inv, host_agg128, host_agg40])).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
